-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x16 : Shape := ⟨2, ![800000, 16]⟩
abbrev S50000 : Shape := ⟨1, ![50000]⟩
abbrev S16x96 : Shape := ⟨2, ![16, 96]⟩
abbrev S96 : Shape := ⟨1, ![96]⟩
abbrev S96x128 : Shape := ⟨2, ![96, 128]⟩
abbrev S128 : Shape := ⟨1, ![128]⟩
abbrev S128x128 : Shape := ⟨2, ![128, 128]⟩
abbrev S16x128 : Shape := ⟨2, ![16, 128]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x96 : S_.BroadcastsInDim S16x96 (![] : Fin 0 → Fin S16x96.rank)
  reducesTo_S16x96_S_d0_1 : S16x96.ReducesTo [0, 1] S_
  bcast_S_S96 : S_.BroadcastsInDim S96 (![] : Fin 0 → Fin S96.rank)
  reducesTo_S96_S_d0 : S96.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_

variable [Facts]

def fn_part4 {F : FTy → Type} [FloatOps F] (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S16x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S16x128 .f32 := Host.absf main_arg10
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S96x128 .f32) (main_arg7 : FVec F S128 .f32) (main_arg8 : FVec F S128x128 .f32) (main_arg9 : FVec F S128 .f32) (main_arg10 : FVec F S16x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x128 .f32 := Host.absf main_arg6
  let main_cst_6 : FVec F S_ .f32 := constant S_ .f32 0x7F800000#32
  let main_v20 : FVec F S96x128 .f32 := broadcastInDim S96x128 ![] bcast_S_S96x128 main_cst_6
  let main_v21 : IVec S96x128 1 := cmpf .olt main_v19 main_v20
  let main_c_7 : IVec S_ 1 := constantI S_ 1 1#1
  let main_v22 : IVec S_ 1 := (fun x v => Host.reduce IntOp.andi x v reducesTo_S96x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x96 .f32) (main_arg1 : IVec S2x800000 32) (main_arg2 : FVec F S800000x16 .f32) (main_arg3 : IVec S50000 32) (main_arg4 : FVec F S16x96 .f32) (main_arg5 : FVec F S96 .f32) (main_arg6 : FVec F S96x128 .f32) (main_arg7 : FVec F S128 .f32) (main_arg8 : FVec F S128x128 .f32) (main_arg9 : FVec F S128 .f32) (main_arg10 : FVec F S16x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x96 .f32 := Host.absf main_arg4
  let main_cst_2 : FVec F S_ .f32 := constant S_ .f32 0x7F800000#32
  let main_v10 : FVec F S16x96 .f32 := broadcastInDim S16x96 ![] bcast_S_S16x96 main_cst_2
  let main_v11 : IVec S16x96 1 := cmpf .olt main_v9 main_v10
  let main_c_3 : IVec S_ 1 := constantI S_ 1 1#1
  let main_v12 : IVec S_ 1 := (fun x v => Host.reduce IntOp.andi x v reducesTo_S16x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x96 : Shape := ⟨2, ![50000, 96]⟩
abbrev S2x800000 : Shape := ⟨2, ![2, 800000]⟩
abbrev S800000x16 : Shape := ⟨2, ![800000, 16]⟩
abbrev S50000 : Shape := ⟨1, ![50000]⟩
abbrev S16x96 : Shape := ⟨2, ![16, 96]⟩
abbrev S96 : Shape := ⟨1, ![96]⟩
abbrev S96x128 : Shape := ⟨2, ![96, 128]⟩
abbrev S128 : Shape := ⟨1, ![128]⟩
abbrev S128x128 : Shape := ⟨2, ![128, 128]⟩
abbrev S16x128 : Shape := ⟨2, ![16, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S8000x16 : Shape := ⟨2, ![8000, 16]⟩
abbrev S8000x96 : Shape := ⟨2, ![8000, 96]⟩
abbrev S1x128 : Shape := ⟨2, ![1, 128]⟩
abbrev S50000x128 : Shape := ⟨2, ![50000, 128]⟩
abbrev S5000x96 : Shape := ⟨2, ![5000, 96]⟩
abbrev S5000x128 : Shape := ⟨2, ![5000, 128]⟩
abbrev S800000x128 : Shape := ⟨2, ![800000, 128]⟩
abbrev S8000x128 : Shape := ⟨2, ![8000, 128]⟩
abbrev S512x128 : Shape := ⟨2, ![512, 128]⟩
abbrev S50000x1 : Shape := ⟨2, ![50000, 1]⟩

abbrev nBuf : Space → Nat
  | .hbm => 86
  | .vmem => 32
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x16, .f32⟩
  | .hbm, ⟨3, _⟩ => ⟨S50000, .i32⟩
  | .hbm, ⟨4, _⟩ => ⟨S16x96, .f32⟩
  | .hbm, ⟨5, _⟩ => ⟨S96, .f32⟩
  | .hbm, ⟨6, _⟩ => ⟨S96x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S16x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x96, .f32⟩
  | .hbm, ⟨31, _⟩ => ⟨S16x96, .bf16⟩
  | .hbm, ⟨32, _⟩ => ⟨S1x96, .f32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S_, .f32⟩
  | .hbm, ⟨39, _⟩ => ⟨S50000x96, .f32⟩
  | .hbm, ⟨40, _⟩ => ⟨S50000x96, .f32⟩
  | .hbm, ⟨41, _⟩ => ⟨S50000x96, .f32⟩
  | .hbm, ⟨42, _⟩ => ⟨S96x128, .bf16⟩
  | .hbm, ⟨43, _⟩ => ⟨S128x128, .bf16⟩
  | .hbm, ⟨44, _⟩ => ⟨S1x128, .f32⟩
  | .hbm, ⟨45, _⟩ => ⟨S1x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S16x128, .bf16⟩
  | .hbm, ⟨60, _⟩ => ⟨S1x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S128x128, .bf16⟩
  | .hbm, ⟨71, _⟩ => ⟨S128x128, .bf16⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S512x128, .f32⟩
  | .hbm, ⟨80, _⟩ => ⟨S50000x1, .i32⟩
  | .hbm, ⟨81, _⟩ => ⟨S512x128, .f32⟩
  | .hbm, ⟨82, _⟩ => ⟨S512x128, .f32⟩
  | .hbm, ⟨83, _⟩ => ⟨S1x128, .f32⟩
  | .hbm, ⟨84, _⟩ => ⟨S512x128, .f32⟩
  | .hbm, ⟨85, _⟩ => ⟨S512x128, .f32⟩
  | .local _ .vmem, ⟨0, _⟩ => ⟨S8000x16, .f32⟩
  | .local _ .vmem, ⟨1, _⟩ => ⟨S8000x16, .f32⟩
  | .local _ .vmem, ⟨2, _⟩ => ⟨S8000x96, .f32⟩
  | .local _ .vmem, ⟨3, _⟩ => ⟨S8000x96, .f32⟩
  | .local _ .vmem, ⟨4, _⟩ => ⟨S16x96, .bf16⟩
  | .local _ .vmem, ⟨5, _⟩ => ⟨S1x96, .f32⟩
  | .local _ .vmem, ⟨6, _⟩ => ⟨S8000x96, .f32⟩
  | .local _ .vmem, ⟨7, _⟩ => ⟨S8000x96, .f32⟩
  | .local _ .vmem, ⟨8, _⟩ => ⟨S5000x96, .f32⟩
  | .local _ .vmem, ⟨9, _⟩ => ⟨S5000x96, .f32⟩
  | .local _ .vmem, ⟨10, _⟩ => ⟨S96x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S8000x16, .f32⟩
  | .local _ .vmem, ⟨17, _⟩ => ⟨S8000x16, .f32⟩
  | .local _ .vmem, ⟨18, _⟩ => ⟨S8000x128, .f32⟩
  | .local _ .vmem, ⟨19, _⟩ => ⟨S8000x128, .f32⟩
  | .local _ .vmem, ⟨20, _⟩ => ⟨S16x128, .bf16⟩
  | .local _ .vmem, ⟨21, _⟩ => ⟨S1x128, .f32⟩
  | .local _ .vmem, ⟨22, _⟩ => ⟨S8000x128, .f32⟩
  | .local _ .vmem, ⟨23, _⟩ => ⟨S8000x128, .f32⟩
  | .local _ .vmem, ⟨24, _⟩ => ⟨S5000x128, .f32⟩
  | .local _ .vmem, ⟨25, _⟩ => ⟨S5000x128, .f32⟩
  | .local _ .vmem, ⟨26, _⟩ => ⟨S128x128, .bf16⟩
  | .local _ .vmem, ⟨27, _⟩ => ⟨S1x128, .f32⟩
  | .local _ .vmem, ⟨28, _⟩ => ⟨S128x128, .bf16⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_cst : Ref sig .tc := ⟨.hbm, 47, rfl⟩
abbrev main_call0_v0 : Ref sig .tc := ⟨.hbm, 48, rfl⟩
abbrev main_v25 : Ref sig .tc := ⟨.hbm, 49, rfl⟩
abbrev main_c_2 : Ref sig .tc := ⟨.hbm, 50, rfl⟩
abbrev main_v26 : Ref sig .tc := ⟨.hbm, 51, rfl⟩
abbrev main_v27 : Ref sig .tc := ⟨.hbm, 52, rfl⟩
abbrev main_c_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  shapeCasts_S96_S1x96 : S96.ShapeCasts S1x96
  inb_S8000x16_S8000x16_0_0 : ∀ a, (![0, 0] : Fin 2 → Nat) a + S8000x16.size a ≤ S8000x16.size a
  h_S8000x16 : 0 < S8000x16.numel
  inb_S16x96_S16x96_0_0 : ∀ a, (![0, 0] : Fin 2 → Nat) a + S16x96.size a ≤ S16x96.size a
  h_S16x96 : 0 < S16x96.numel
  shapeCasts_S16x96_S16x96 : S16x96.ShapeCasts S16x96
  inb_S8000x96_S8000x96_0_0 : ∀ a, (![0, 0] : Fin 2 → Nat) a + S8000x96.size a ≤ S8000x96.size a
  h_S8000x96 : 0 < S8000x96.numel
  shapeCasts_S8000x96_S8000x96 : S8000x96.ShapeCasts S8000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S8000x96 : S1x96.Broadcasts S8000x96
  bcast_S_S50000x96 : S_.BroadcastsInDim S50000x96 (![] : Fin 0 → Fin S50000x96.rank)
  shapeCasts_S128_S1x128 : S128.ShapeCasts S1x128
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  shapeCasts_S5000x128_S5000x128 : S5000x128.ShapeCasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S50000x96_S800000x1_S800000x96_1_0_n_n_0_1_196_wf : GatherDims.WF S50000x96 S800000x1 S800000x96 [1] [0] [] [0] [] 1 ![1, 96]
  dot_S8000x16_S16x96_S8000x96_1_0_0_1_n_n_wf : DotDims.WF S8000x16 S16x96 S8000x96 [1] [0] [0] [1] [] []
  scatter_S50000x96_S800000x1_S800000x96_1_0_0_1_wf : ScatterDims.WF S50000x96 S800000x1 S800000x96 [1] [0] [0] 1
  dot_S5000x96_S96x128_S5000x128_1_0_0_1_n_n_wf : DotDims.WF S5000x96 S96x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S8000x16_S16x128_S8000x128_1_0_0_1_n_n_wf : DotDims.WF S8000x16 S16x128 S8000x128 [1] [0] [0] [1] [] []
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S800000x16.size a
  hwx0_0 : ∀ i : grid0.Coords, EltTy.bits .f32 = 32 ∨ (Rect.block (s := S800000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x96.size a ≤ S800000x96.size a
  hwx0_1 : ∀ i : grid0.Coords, EltTy.bits .f32 = 32 ∨ (Rect.block (s := S800000x96) S8000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x96.size a ≤ S16x96.size a
  hwx0_2 : ∀ i : grid0.Coords, EltTy.bits .bf16 = 32 ∨ (Rect.block (s := S16x96) S16x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x96.size a ≤ S800000x96.size a
  hwx0_4 : ∀ i : grid0.Coords, EltTy.bits .f32 = 32 ∨ (Rect.block (s := S800000x96) S8000x96.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x128.size a ≤ S96x128.size a
  hwx1_1 : ∀ i : grid1.Coords, EltTy.bits .bf16 = 32 ∨ (Rect.block (s := S96x128) S96x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S800000x16.size a
  hwx2_0 : ∀ i : grid2.Coords, EltTy.bits .f32 = 32 ∨ (Rect.block (s := S800000x16) S8000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .bf16 = 32 ∨ (Rect.block (s := S16x128) S16x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S800000x128.size a
  hwx2_4 : ∀ i : grid2.Coords, EltTy.bits .f32 = 32 ∨ (Rect.block (s := S800000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S8000x16_S16x96_S8000x96_1_0_0_1_n_n : DotDims S8000x16 S16x96 S8000x96 where
  lhsContracting := [1]
  rhsContracting := [0]
  lhsNonContracting := [0]
  rhsNonContracting := [1]
  lhsBatch := []
  rhsBatch := []
  wf := dot_S8000x16_S16x96_S8000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg2) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S96x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x16 : Shape := ⟨2, ![800000, 16]⟩
abbrev S50000 : Shape := ⟨1, ![50000]⟩
abbrev S16x96 : Shape := ⟨2, ![16, 96]⟩
abbrev S96 : Shape := ⟨1, ![96]⟩
abbrev S96x128 : Shape := ⟨2, ![96, 128]⟩
abbrev S128 : Shape := ⟨1, ![128]⟩
abbrev S128x128 : Shape := ⟨2, ![128, 128]⟩
abbrev S16x128 : Shape := ⟨2, ![16, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S50000x128 : Shape := ⟨2, ![50000, 128]⟩
abbrev S1x128 : Shape := ⟨2, ![1, 128]⟩
abbrev S800000x128 : Shape := ⟨2, ![800000, 128]⟩
abbrev S512x128 : Shape := ⟨2, ![512, 128]⟩
abbrev S50000x1 : Shape := ⟨2, ![50000, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x16, .f32⟩
  | .hbm, ⟨3, _⟩ => ⟨S50000, .i32⟩
  | .hbm, ⟨4, _⟩ => ⟨S16x96, .f32⟩
  | .hbm, ⟨5, _⟩ => ⟨S96, .f32⟩
  | .hbm, ⟨6, _⟩ => ⟨S96x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S16x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x96, .f32⟩
  | .hbm, ⟨31, _⟩ => ⟨S800000x96, .f32⟩
  | .hbm, ⟨32, _⟩ => ⟨S800000x96, .f32⟩
  | .hbm, ⟨33, _⟩ => ⟨S1x96, .f32⟩
  | .hbm, ⟨34, _⟩ => ⟨S800000x96, .f32⟩
  | .hbm, ⟨35, _⟩ => ⟨S800000x96, .f32⟩
  | .hbm, ⟨36, _⟩ => ⟨S_, .f32⟩
  | .hbm, ⟨37, _⟩ => ⟨S800000x96, .f32⟩
  | .hbm, ⟨38, _⟩ => ⟨S800000x96, .f32⟩
  | .hbm, ⟨39, _⟩ => ⟨S_, .f32⟩
  | .hbm, ⟨40, _⟩ => ⟨S50000x96, .f32⟩
  | .hbm, ⟨41, _⟩ => ⟨S800000x1, .i32⟩
  | .hbm, ⟨42, _⟩ => ⟨S50000x96, .f32⟩
  | .hbm, ⟨43, _⟩ => ⟨S_, .f32⟩
  | .hbm, ⟨44, _⟩ => ⟨S50000x96, .f32⟩
  | .hbm, ⟨45, _⟩ => ⟨S50000x96, .f32⟩
  | .hbm, ⟨46, _⟩ => ⟨S50000x96, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S800000x128, .f32⟩
  | .hbm, ⟨71, _⟩ => ⟨S800000x128, .f32⟩
  | .hbm, ⟨72, _⟩ => ⟨S1x128, .f32⟩
  | .hbm, ⟨73, _⟩ => ⟨S800000x128, .f32⟩
  | .hbm, ⟨74, _⟩ => ⟨S800000x128, .f32⟩
  | .hbm, ⟨75, _⟩ => ⟨S_, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S512x128, .f32⟩
  | .hbm, ⟨102, _⟩ => ⟨S50000x1, .i32⟩
  | .hbm, ⟨103, _⟩ => ⟨S512x128, .f32⟩
  | .hbm, ⟨104, _⟩ => ⟨S512x128, .f32⟩
  | .hbm, ⟨105, _⟩ => ⟨S1x128, .f32⟩
  | .hbm, ⟨106, _⟩ => ⟨S512x128, .f32⟩
  | .hbm, ⟨107, _⟩ => ⟨S512x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call2_cst : Ref sig .tc := ⟨.hbm, 58, rfl⟩
abbrev main_call2_v0 : Ref sig .tc := ⟨.hbm, 59, rfl⟩
abbrev main_v32 : Ref sig .tc := ⟨.hbm, 60, rfl⟩
abbrev main_c_2 : Ref sig .tc := ⟨.hbm, 61, rfl⟩
abbrev main_v33 : Ref sig .tc := ⟨.hbm, 62, rfl⟩
abbrev main_v34 : Ref sig .tc := ⟨.hbm, 63, rfl⟩
abbrev main_c_3 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call3_cst : Ref sig .tc := ⟨.hbm, 75, rfl⟩
abbrev main_call3_v0 : Ref sig .tc := ⟨.hbm, 76, rfl⟩
abbrev main_v45 : Ref sig .tc := ⟨.hbm, 77, rfl⟩
abbrev main_cst_4 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call4_cst : Ref sig .tc := ⟨.hbm, 90, rfl⟩
abbrev main_call4_v0 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call5_cst : Ref sig .tc := ⟨.hbm, 97, rfl⟩
abbrev main_call5_v0 : Ref sig .tc := ⟨.hbm, 98, rfl⟩
abbrev main_v61 : Ref sig .tc := ⟨.hbm, 99, rfl⟩
abbrev main_cst_6 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S1x128_S512x128_0_1 : S1x128.BroadcastsInDim S512x128 (![0, 1] : Fin 2 → Fin S512x128.rank)
  gather_S50000x96_S800000x1_S800000x96_1_0_n_n_0_1_196_wf : GatherDims.WF S50000x96 S800000x1 S800000x96 [1] [0] [] [0] [] 1 ![1, 96]
  dot_S800000x16_S16x96_S800000x96_1_0_0_1_n_n_wf : DotDims.WF S800000x16 S16x96 S800000x96 [1] [0] [0] [1] [] []
  scatter_S50000x96_S800000x1_S800000x96_1_0_0_1_wf : ScatterDims.WF S50000x96 S800000x1 S800000x96 [1] [0] [0] 1
  dot_S50000x96_S96x128_S50000x128_1_0_0_1_n_n_wf : DotDims.WF S50000x96 S96x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x16_S16x128_S800000x128_1_0_0_1_n_n_wf : DotDims.WF S800000x16 S16x128 S800000x128 [1] [0] [0] [1] [] []
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x16_S16x96_S800000x96_1_0_0_1_n_n : DotDims S800000x16 S16x96 S800000x96 where
  lhsContracting := [1]
  rhsContracting := [0]
  lhsNonContracting := [0]
  rhsNonContracting := [1]
  lhsBatch := []
  rhsBatch := []
  wf := dot_S800000x16_S16x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibConcatRows.lean ====
/-
  Rows placed end to end, and the concatenation of two, three or four matrices along their column axis read at one
  element: row e, column k of the joined matrix is column k of the joined rows e of the pieces.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.LibConcatRows

variable {α : Type}

/-- Two rows end to end. -/
def catRow2 {A B : ℕ} (a : Fin A → α) (b : Fin B → α) : Fin (A + B) → α := fun k =>
  if h : k.val < A then a ⟨k.val, h⟩ else b ⟨k.val - A, by have := k.isLt; omega⟩

/-- Three rows end to end. -/
def catRow3 {A B C : ℕ} (a : Fin A → α) (b : Fin B → α) (c : Fin C → α) : Fin (A + B + C) → α := fun k =>
  if h : k.val < A then a ⟨k.val, h⟩
  else if h2 : k.val < A + B then b ⟨k.val - A, by omega⟩
  else c ⟨k.val - (A + B), by have := k.isLt; omega⟩

/-- Four rows end to end. -/
def catRow4 {A B C D : ℕ} (a : Fin A → α) (b : Fin B → α) (c : Fin C → α) (d : Fin D → α) :
    Fin (A + B + C + D) → α := fun k =>
  if h : k.val < A then a ⟨k.val, h⟩
  else if h2 : k.val < A + B then b ⟨k.val - A, by omega⟩
  else if h3 : k.val < A + B + C then c ⟨k.val - (A + B), by omega⟩
  else d ⟨k.val - (A + B + C), by have := k.isLt; omega⟩

/-- The joined matrix read at row e and a column k lying in piece number p (which starts at column `pre`): piece p at
    row e and column k - pre, written as a column q of the piece with pre + q = k. -/
theorem concat_rows_piece {M N W : ℕ} (xs : List ((s : Shape) × (s.Idx → α)))
    (h : Shape.Concatenates (xs.map (·.1)) ⟨2, ![M, N]⟩ (1 : Fin 2))
    (p : ℕ) (hp : p < xs.length) (x : (⟨2, ![M, W]⟩ : Shape).Idx → α) (hx : xs[p] = ⟨⟨2, ![M, W]⟩, x⟩)
    (pre : ℕ)
    (hpre : (((xs.take p).map (·.1)).map fun s : Shape =>
      if h : s.rank = (⟨2, ![M, N]⟩ : Shape).rank then s.size ((1 : Fin 2).cast h.symm) else 0).sum = pre)
    (e : Fin M) (k : Fin N) (q : Fin W) (hq : pre + q.val = k.val) :
    concatenate (⟨2, ![M, N]⟩ : Shape) (1 : Fin 2) xs h (ix2 e k) = x (ix2 e q) := by
  refine concatenate_apply_piece (t := ⟨2, ![M, N]⟩) (1 : Fin 2) xs h (ix2 e k) p hp _ x hx rfl pre hpre (ix2 e q) ?_ ?_
  · intro b hb
    match b with
    | ⟨0, _⟩ => rfl
    | ⟨1, _⟩ => exact absurd rfl hb
  · exact hq

/-- Two matrices joined along the columns, at row e and column k. -/
theorem concat2_rows {M A B : ℕ} (xa : (⟨2, ![M, A]⟩ : Shape).Idx → α) (xb : (⟨2, ![M, B]⟩ : Shape).Idx → α)
    (h : Shape.Concatenates (([⟨⟨2, ![M, A]⟩, xa⟩, ⟨⟨2, ![M, B]⟩, xb⟩] : List ((s : Shape) × (s.Idx → α))).map (·.1))
      ⟨2, ![M, A + B]⟩ (1 : Fin 2))
    (e : Fin M) (k : Fin (A + B)) :
    concatenate (⟨2, ![M, A + B]⟩ : Shape) (1 : Fin 2) [⟨⟨2, ![M, A]⟩, xa⟩, ⟨⟨2, ![M, B]⟩, xb⟩] h (ix2 e k)
      = catRow2 (fun i => xa (ix2 e i)) (fun i => xb (ix2 e i)) k := by
  unfold catRow2
  split_ifs with h1
  · exact concat_rows_piece _ h 0 (by simp) xa rfl 0 (by simp) e k ⟨k.val, h1⟩ (by simp)
  · exact concat_rows_piece _ h 1 (by simp) xb rfl A (by simp) e k ⟨k.val - A, by have := k.isLt; omega⟩
      (by simp only; omega)

/-- Three matrices joined along the columns, at row e and column k. -/
theorem concat3_rows {M A B C : ℕ} (xa : (⟨2, ![M, A]⟩ : Shape).Idx → α) (xb : (⟨2, ![M, B]⟩ : Shape).Idx → α)
    (xc : (⟨2, ![M, C]⟩ : Shape).Idx → α)
    (h : Shape.Concatenates (([⟨⟨2, ![M, A]⟩, xa⟩, ⟨⟨2, ![M, B]⟩, xb⟩, ⟨⟨2, ![M, C]⟩, xc⟩] : List ((s : Shape) × (s.Idx → α))).map (·.1))
      ⟨2, ![M, A + B + C]⟩ (1 : Fin 2))
    (e : Fin M) (k : Fin (A + B + C)) :
    concatenate (⟨2, ![M, A + B + C]⟩ : Shape) (1 : Fin 2) [⟨⟨2, ![M, A]⟩, xa⟩, ⟨⟨2, ![M, B]⟩, xb⟩, ⟨⟨2, ![M, C]⟩, xc⟩] h (ix2 e k)
      = catRow3 (fun i => xa (ix2 e i)) (fun i => xb (ix2 e i)) (fun i => xc (ix2 e i)) k := by
  unfold catRow3
  split_ifs with h1 h2
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k
      ⟨k.val - (A + B), by have := k.isLt; omega⟩ (by simp only; omega)

/-- Four matrices joined along the columns, at row e and column k. -/
theorem concat4_rows {M A B C D : ℕ} (xa : (⟨2, ![M, A]⟩ : Shape).Idx → α) (xb : (⟨2, ![M, B]⟩ : Shape).Idx → α)
    (xc : (⟨2, ![M, C]⟩ : Shape).Idx → α) (xd : (⟨2, ![M, D]⟩ : Shape).Idx → α)
    (h : Shape.Concatenates (([⟨⟨2, ![M, A]⟩, xa⟩, ⟨⟨2, ![M, B]⟩, xb⟩, ⟨⟨2, ![M, C]⟩, xc⟩, ⟨⟨2, ![M, D]⟩, xd⟩] : List ((s : Shape) × (s.Idx → α))).map (·.1))
      ⟨2, ![M, A + B + C + D]⟩ (1 : Fin 2))
    (e : Fin M) (k : Fin (A + B + C + D)) :
    concatenate (⟨2, ![M, A + B + C + D]⟩ : Shape) (1 : Fin 2)
        [⟨⟨2, ![M, A]⟩, xa⟩, ⟨⟨2, ![M, B]⟩, xb⟩, ⟨⟨2, ![M, C]⟩, xc⟩, ⟨⟨2, ![M, D]⟩, xd⟩] h (ix2 e k)
      = catRow4 (fun i => xa (ix2 e i)) (fun i => xb (ix2 e i)) (fun i => xc (ix2 e i)) (fun i => xd (ix2 e i)) k := by
  unfold catRow4
  split_ifs with h1 h2 h3
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k ⟨k.val - (A + B), by omega⟩
      (by simp only; omega)
  · exact concat_rows_piece _ h 3 (by simp) xd rfl (A + B + C) (by simp [Nat.add_assoc]) e k
      ⟨k.val - (A + B + C), by have := k.isLt; omega⟩ (by simp only; omega)

end Cert.LibConcatRows

end
-- ==== Proof.LibMlpRows.lean ====
/-
  A three-layer perceptron applied to one row of a matrix, over the extended reals: an affine layer is the row times a
  weight matrix plus a bias row, the activation is the maximum with a threshold, and the network is
  affine, activation, affine, activation, affine. The two ways a program spells one affine layer of a whole matrix are
  read at one element: the matrix unit's product accumulated into the zero matrix with the bias kept as a one-row matrix
  and broadcast over the rows, and the host's product with the bias kept as a vector, broadcast first to one row and then
  over the rows. Both are the same sum over the contracted coordinate plus the bias entry of the column.
-/
import Idealize.ShloMosaic.PureOps.Ideal.Laws
import Idealize.ShloMosaic.Lib.ValueIdx
import Idealize.ShloMosaic.Lib.Pipeline.Value
import proofs.«156036_j43258910605922_1_alg».proof.Proof.LibPlainMatmul
import proofs.«156036_j43258910605922_1_alg».proof.Proof.LibConcatRows

noncomputable section

open Idealize.ShloMosaic Idealize.ShloMosaic.ValueIdx

namespace Cert.LibMlpRows

/-- One affine layer on a row: entry j is ∑ₖ xₖ · w(k, j) + bⱼ. -/
def layer {K N : ℕ} (x : Fin K → EReal) (w : Fin K → Fin N → EReal) (b : Fin N → EReal) : Fin N → EReal :=
  fun j => (∑ k : Fin K, x k * w k j) + b j

/-- The activation: each entry's maximum with the threshold z. -/
def act {N : ℕ} (z : EReal) (v : Fin N → EReal) : Fin N → EReal := fun j => max (v j) z

/-- Affine, activation, affine, activation, affine. -/
def mlp3 {K H₁ H₂ N : ℕ} (z : EReal) (x : Fin K → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) : Fin N → EReal :=
  layer (act z (layer (act z (layer x w₁ b₁)) w₂ b₂)) w₃ b₃

/-- The matrix unit's layer: the product into a zero accumulator plus a one-row bias broadcast over the rows, at row e
    and column j. -/
theorem unit_layer_apply {M K N : ℕ} {φ₁ φ₂ : FTy} (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (e : Fin M) (j : Fin N) :
    addf (matmul (DotDims.plain M K N) none x w (constant (⟨2, ![M, N]⟩ : Shape) .f32 0x00000000#32))
        (broadcastTo (⟨2, ![M, N]⟩ : Shape) b hb) (ix2 e j)
      = layer (fun k => x (ix2 e k)) (fun k n => w (ix2 k n)) (fun n => b (ix2 (0 : Fin 1) n)) j := by
  rw [addf_apply, Cert.LibPlainMatmul.matmul_plain_apply]
  unfold layer
  congr 1
  refine broadcastTo_apply b hb (ix2 e j) (ix2 (0 : Fin 1) j) fun a => ?_
  match a with
  | ⟨0, _⟩ => rfl
  | ⟨1, _⟩ =>
    show j.val = if N = 1 then 0 else j.val
    split_ifs with h1
    · have := j.isLt; omega
    · rfl

/-- The host's layer: the product plus a bias vector broadcast to one row and then over the rows, at row e and column j. -/
theorem host_layer_apply {M K N : ℕ} {φ₁ φ₂ : FTy} (x : FVec Ideal ⟨2, ![M, K]⟩ φ₁) (w : FVec Ideal ⟨2, ![K, N]⟩ φ₂)
    (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) (e : Fin M) (j : Fin N) :
    addf (Host.dotGeneral (DotDims.plain M K N) none x w)
        (broadcastInDim (⟨2, ![M, N]⟩ : Shape) ![0, 1] h₂ (broadcastInDim (⟨2, ![1, N]⟩ : Shape) ![1] h₁ b)) (ix2 e j)
      = layer (fun k => x (ix2 e k)) (fun k n => w (ix2 k n)) (fun n => b (ix1 n)) j := by
  rw [addf_apply, Cert.LibPlainMatmul.dotGeneral_plain_apply]
  unfold layer
  congr 1
  refine (broadcastInDim_apply ![0, 1] h₂ _ (ix2 e j) (ix2 (0 : Fin 1) j) fun a => ?_).trans
    (broadcastInDim_apply ![1] h₁ b (ix2 (0 : Fin 1) j) (ix1 j) fun a => ?_)
  · match a with
    | ⟨0, _⟩ => rfl
    | ⟨1, _⟩ =>
      show j.val = if N = 1 then 0 else j.val
      split_ifs with h1
      · have := j.isLt; omega
      · rfl
  · match a with
    | ⟨0, _⟩ =>
      show j.val = if N = 1 then 0 else j.val
      split_ifs with h1
      · have := j.isLt; omega
      · rfl

/-- The activation of a matrix against a splat threshold, at one element. -/
theorem act_apply {s : Shape} {φ : FTy} (v : FVec Ideal s φ) (z : Ideal φ) (i : s.Idx) :
    maximumf v (broadcast s z) i = max (v i) z := rfl

/-- The network applied to every row of a matrix. -/
def mlpRows {M K H₁ H₂ N : ℕ} (z : EReal) (x : (⟨2, ![M, K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) : (⟨2, ![M, N]⟩ : Shape).Idx → EReal :=
  fun i => mlp3 z (fun k => x (ix2 (n0 := M) (i 0) k)) w₁ b₁ w₂ b₂ w₃ b₃ (i 1)

theorem mlpRows_ix2 {M K H₁ H₂ N : ℕ} (z : EReal) (x : (⟨2, ![M, K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) (e : Fin M) (j : Fin N) :
    mlpRows z x w₁ b₁ w₂ b₂ w₃ b₃ (ix2 e j) = mlp3 z (fun k => x (ix2 e k)) w₁ b₁ w₂ b₂ w₃ b₃ j := rfl

/-- Two matrices of 64 columns each side by side: row e of the result is row e of the first followed by row e of the
    second. -/
def joinRows64 {M : ℕ} (a b : (⟨2, ![M, 64]⟩ : Shape).Idx → EReal) : (⟨2, ![M, 128]⟩ : Shape).Idx → EReal :=
  fun i => if h : (i 1).val < 64 then a (ix2 (n0 := M) (i 0) ⟨(i 1).val, h⟩)
    else b (ix2 (n0 := M) (i 0) ⟨(i 1).val - 64, by have := idx2_lt1 i; omega⟩)

/-- The join of two 64-column matrices along the columns is `joinRows64`. -/
theorem concatenate_eq_joinRows64 {M : ℕ} (a b : (⟨2, ![M, 64]⟩ : Shape).Idx → EReal)
    (h : Shape.Concatenates (([⟨⟨2, ![M, 64]⟩, a⟩, ⟨⟨2, ![M, 64]⟩, b⟩] : List ((s : Shape) × (s.Idx → EReal))).map (·.1))
      ⟨2, ![M, 128]⟩ (1 : Fin 2)) :
    concatenate (⟨2, ![M, 128]⟩ : Shape) (1 : Fin 2) [⟨⟨2, ![M, 64]⟩, a⟩, ⟨⟨2, ![M, 64]⟩, b⟩] h = joinRows64 a b := by
  funext i
  obtain ⟨e, k, rfl⟩ : ∃ (e : Fin M) (k : Fin 128), i = ix2 e k := ⟨i 0, i 1, eq_ix2 i⟩
  unfold joinRows64
  split_ifs with h1
  · exact Cert.LibConcatRows.concat_rows_piece _ h 0 (by simp) a rfl 0 (by simp) e k ⟨k.val, h1⟩ (by simp)
  · exact Cert.LibConcatRows.concat_rows_piece _ h 1 (by simp) b rfl 64 (by simp) e k
      ⟨k.val - 64, by have := k.isLt; omega⟩ (by simp only; have : ¬ k.val < 64 := h1; omega)

/-- A splat of a constant word over any shape, at one element: the word's value. -/
theorem splat_const_apply {t : Shape} (h : (⟨0, ![]⟩ : Shape).BroadcastsInDim t ![]) (w : BitVec 32) (i : t.Idx) :
    broadcastInDim t ![] h (constant (F := Ideal) (⟨0, ![]⟩ : Shape) .f32 w) i = Ideal.ofBits .f32 w :=
  (broadcastInDim_apply ![] h _ i ix0 (fun a => a.elim0)).trans rfl

/-- The network on the rows of a matrix x, at an element y, is the network on the rows of a matrix X at an element i,
    when row y₀ of x is row i₀ of X and the two elements are in the same column. -/
theorem mlpRows_block {M M' K H₁ H₂ N : ℕ} (z : EReal) (X : (⟨2, ![M, K]⟩ : Shape).Idx → EReal)
    (x : (⟨2, ![M', K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal)
    (y : (⟨2, ![M', N]⟩ : Shape).Idx) (i : (⟨2, ![M, N]⟩ : Shape).Idx)
    (hrow : ∀ k : Fin K, x (ix2 (n0 := M') (y 0) k) = X (ix2 (n0 := M) (i 0) k)) (hcol : (y 1).val = (i 1).val) :
    mlpRows z x w₁ b₁ w₂ b₂ w₃ b₃ y = mlpRows z X w₁ b₁ w₂ b₂ w₃ b₃ i := by
  unfold mlpRows
  have hx : (fun k => x (ix2 (n0 := M') (y 0) k)) = fun k => X (ix2 (n0 := M) (i 0) k) := funext hrow
  rw [hx]
  exact congrArg _ (Fin.ext hcol)

/-- Row r of the join of a and b is row R of the join of A and B when the rows of the pieces are. -/
theorem joinRows64_block {M M' : ℕ} (A B : (⟨2, ![M, 64]⟩ : Shape).Idx → EReal) (a b : (⟨2, ![M', 64]⟩ : Shape).Idx → EReal)
    (r : Fin M') (R : Fin M) (ha : ∀ q : Fin 64, a (ix2 r q) = A (ix2 R q)) (hb : ∀ q : Fin 64, b (ix2 r q) = B (ix2 R q))
    (k : Fin 128) : joinRows64 a b (ix2 r k) = joinRows64 A B (ix2 R k) := by
  show (if h : k.val < 64 then a (ix2 r ⟨k.val, h⟩) else b (ix2 r ⟨k.val - 64, _⟩))
    = (if h : k.val < 64 then A (ix2 R ⟨k.val, h⟩) else B (ix2 R ⟨k.val - 64, _⟩))
  split_ifs with h
  · exact ha _
  · exact hb _

end Cert.LibMlpRows

end
-- ==== Proof.LibGineConv.lean ====
/-
  One layer of a graph network whose messages carry edge attributes, over the extended reals, read at one element.

  The message on an edge is  max ((s + ∑ₖ aₖ · w(k, j)) + bⱼ, z):  s is the sending node's feature in column j, a the
  edge's attribute row, w a weight matrix, b a bias row and z the activation's threshold. The node update is a
  two-layer perceptron on each row of a matrix: affine, activation, affine.

  Each is read at one element in the two ways a program spells it: with the matrix unit's product accumulated into the
  zero matrix, the bias a one-row matrix broadcast over the rows and the threshold a splat; and with the host's product,
  the bias a vector broadcast first to one row and then over the rows, and the threshold a broadcast constant. Only
  the reading of a product as a sum over the contracted coordinate is used: nothing of the arithmetic of the extended
  reals, so nothing here needs finiteness.

  Last, the transport from a block of rows to the whole matrix: an element of the message (of the perceptron) computed
  from a block of rows is the element of the message (of the perceptron) of the whole matrix in the row the block's row
  comes from.
-/
import Idealize.ShloMosaic.PureOps.Ideal.Laws
import Idealize.ShloMosaic.Lib.ValueIdx
import Idealize.ShloMosaic.Lib.Pipeline.Value
import proofs.«156036_j43258910605922_1_alg».proof.Proof.LibPlainMatmul
import proofs.«156036_j43258910605922_1_alg».proof.Proof.LibMlpRows

noncomputable section

open Idealize.ShloMosaic Idealize.ShloMosaic.ValueIdx
open Cert.LibMlpRows (layer act)

namespace Cert.LibGineConv

/-! ## The edge message -/

/-- The messages of all edges: entry (e, j) is max ((xs(e, j) + ∑ₖ a(e, k) · w(k, j)) + bⱼ, z). -/
def edgeMsg {E K D : ℕ} (z : EReal) (a : (⟨2, ![E, K]⟩ : Shape).Idx → EReal) (xs : (⟨2, ![E, D]⟩ : Shape).Idx → EReal)
    (w : Fin K → Fin D → EReal) (b : Fin D → EReal) : (⟨2, ![E, D]⟩ : Shape).Idx → EReal :=
  fun i => max ((xs i + ∑ k : Fin K, a (ix2 (n0 := E) (i 0) k) * w k (i 1)) + b (i 1)) z

theorem edgeMsg_ix2 {E K D : ℕ} (z : EReal) (a : (⟨2, ![E, K]⟩ : Shape).Idx → EReal)
    (xs : (⟨2, ![E, D]⟩ : Shape).Idx → EReal) (w : Fin K → Fin D → EReal) (b : Fin D → EReal) (e : Fin E) (j : Fin D) :
    edgeMsg z a xs w b (ix2 e j) = max ((xs (ix2 e j) + ∑ k : Fin K, a (ix2 e k) * w k j) + b j) z := rfl

/-- The matrix unit's message: the gathered features plus the product into a zero accumulator, plus a one-row bias
    broadcast over the rows, against a splat threshold; at row e and column j. -/
theorem unit_edgeMsg_apply {M K N : ℕ} {φ₁ φ₂ : FTy} (a : FVec Ideal ⟨2, ![M, K]⟩ φ₁) (w : FVec Ideal ⟨2, ![K, N]⟩ φ₂)
    (xs : FVec Ideal ⟨2, ![M, N]⟩ .f32) (b : FVec Ideal ⟨2, ![1, N]⟩ .f32)
    (hb : (⟨2, ![1, N]⟩ : Shape).Broadcasts ⟨2, ![M, N]⟩) (z : Ideal .f32) (e : Fin M) (j : Fin N) :
    maximumf (addf (addf xs (matmul (DotDims.plain M K N) none a w (constant (⟨2, ![M, N]⟩ : Shape) .f32 0x00000000#32)))
        (broadcastTo (⟨2, ![M, N]⟩ : Shape) b hb)) (broadcast (⟨2, ![M, N]⟩ : Shape) z) (ix2 e j)
      = edgeMsg z a xs (fun k n => w (ix2 k n)) (fun n => b (ix2 (0 : Fin 1) n)) (ix2 e j) := by
  rw [edgeMsg_ix2, Cert.LibMlpRows.act_apply, addf_apply, addf_apply, Cert.LibPlainMatmul.matmul_plain_apply]
  congr 2
  refine broadcastTo_apply b hb (ix2 e j) (ix2 (0 : Fin 1) j) fun c => ?_
  match c with
  | ⟨0, _⟩ => rfl
  | ⟨1, _⟩ =>
    show j.val = if N = 1 then 0 else j.val
    split_ifs with h1
    · have := j.isLt; omega
    · rfl

/-- The host's message: the gathered features plus the host's product, plus a bias vector broadcast to one row and then
    over the rows, against a broadcast constant; at row e and column j. -/
theorem host_edgeMsg_apply {M K N : ℕ} {φ₁ φ₂ : FTy} (a : FVec Ideal ⟨2, ![M, K]⟩ φ₁) (w : FVec Ideal ⟨2, ![K, N]⟩ φ₂)
    (xs : FVec Ideal ⟨2, ![M, N]⟩ .f32) (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1])
    (h₀ : (⟨0, ![]⟩ : Shape).BroadcastsInDim ⟨2, ![M, N]⟩ ![]) (wz : BitVec 32) (e : Fin M) (j : Fin N) :
    maximumf (addf (addf xs (Host.dotGeneral (DotDims.plain M K N) none a w))
        (broadcastInDim (⟨2, ![M, N]⟩ : Shape) ![0, 1] h₂ (broadcastInDim (⟨2, ![1, N]⟩ : Shape) ![1] h₁ b)))
        (broadcastInDim (⟨2, ![M, N]⟩ : Shape) ![] h₀ (constant (F := Ideal) (⟨0, ![]⟩ : Shape) .f32 wz)) (ix2 e j)
      = edgeMsg (Ideal.ofBits .f32 wz) a xs (fun k n => w (ix2 k n)) (fun n => b (ix1 n)) (ix2 e j) := by
  rw [edgeMsg_ix2, maximumf_apply, Cert.LibMlpRows.splat_const_apply, addf_apply, addf_apply,
    Cert.LibPlainMatmul.dotGeneral_plain_apply]
  show max ((xs (ix2 e j) + _) + _) _ = _
  congr 2
  refine (broadcastInDim_apply ![0, 1] h₂ _ (ix2 e j) (ix2 (0 : Fin 1) j) fun c => ?_).trans
    (broadcastInDim_apply ![1] h₁ b (ix2 (0 : Fin 1) j) (ix1 j) fun c => ?_)
  · match c with
    | ⟨0, _⟩ => rfl
    | ⟨1, _⟩ =>
      show j.val = if N = 1 then 0 else j.val
      split_ifs with h1
      · have := j.isLt; omega
      · rfl
  · match c with
    | ⟨0, _⟩ =>
      show j.val = if N = 1 then 0 else j.val
      split_ifs with h1
      · have := j.isLt; omega
      · rfl

/-- The message computed from a block of edges, at an element y, is the message of all edges at an element i, when the
    block's attribute row y₀ is the whole matrix's row i₀, the gathered feature is the same, and the columns agree. -/
theorem edgeMsg_block {E E' K D : ℕ} (z : EReal) (A : (⟨2, ![E, K]⟩ : Shape).Idx → EReal)
    (a : (⟨2, ![E', K]⟩ : Shape).Idx → EReal) (XS : (⟨2, ![E, D]⟩ : Shape).Idx → EReal)
    (xs : (⟨2, ![E', D]⟩ : Shape).Idx → EReal) (w : Fin K → Fin D → EReal) (b : Fin D → EReal)
    (y : (⟨2, ![E', D]⟩ : Shape).Idx) (i : (⟨2, ![E, D]⟩ : Shape).Idx)
    (hrow : ∀ k : Fin K, a (ix2 (n0 := E') (y 0) k) = A (ix2 (n0 := E) (i 0) k)) (hx : xs y = XS i)
    (hcol : (y 1).val = (i 1).val) :
    edgeMsg z a xs w b y = edgeMsg z A XS w b i := by
  unfold edgeMsg
  have hc : y 1 = i 1 := Fin.ext hcol
  simp only [hrow, hx, hc]

/-! ## The two-layer perceptron on rows -/

/-- Affine, activation, affine. -/
def mlp2 {K H N : ℕ} (z : EReal) (x : Fin K → EReal) (w₁ : Fin K → Fin H → EReal) (b₁ : Fin H → EReal)
    (w₂ : Fin H → Fin N → EReal) (b₂ : Fin N → EReal) : Fin N → EReal :=
  layer (act z (layer x w₁ b₁)) w₂ b₂

/-- The network applied to every row of a matrix. -/
def mlp2Rows {M K H N : ℕ} (z : EReal) (x : (⟨2, ![M, K]⟩ : Shape).Idx → EReal)
    (w₁ : Fin K → Fin H → EReal) (b₁ : Fin H → EReal) (w₂ : Fin H → Fin N → EReal) (b₂ : Fin N → EReal) :
    (⟨2, ![M, N]⟩ : Shape).Idx → EReal :=
  fun i => mlp2 z (fun k => x (ix2 (n0 := M) (i 0) k)) w₁ b₁ w₂ b₂ (i 1)

theorem mlp2Rows_ix2 {M K H N : ℕ} (z : EReal) (x : (⟨2, ![M, K]⟩ : Shape).Idx → EReal)
    (w₁ : Fin K → Fin H → EReal) (b₁ : Fin H → EReal) (w₂ : Fin H → Fin N → EReal) (b₂ : Fin N → EReal)
    (e : Fin M) (j : Fin N) :
    mlp2Rows z x w₁ b₁ w₂ b₂ (ix2 e j) = mlp2 z (fun k => x (ix2 e k)) w₁ b₁ w₂ b₂ j := rfl

/-- The matrix unit's network: two of its layers with a splat threshold between them; at row e and column j. -/
theorem unit_mlp2_apply {M K H N : ℕ} {φ₁ φ₂ φ₃ : FTy} (x : FVec Ideal ⟨2, ![M, K]⟩ φ₁) (w₁ : FVec Ideal ⟨2, ![K, H]⟩ φ₂)
    (b₁ : FVec Ideal ⟨2, ![1, H]⟩ .f32) (w₂ : FVec Ideal ⟨2, ![H, N]⟩ φ₃) (b₂ : FVec Ideal ⟨2, ![1, N]⟩ .f32)
    (hb₁ : (⟨2, ![1, H]⟩ : Shape).Broadcasts ⟨2, ![M, H]⟩) (hb₂ : (⟨2, ![1, N]⟩ : Shape).Broadcasts ⟨2, ![M, N]⟩)
    (z : Ideal .f32) (e : Fin M) (j : Fin N) :
    addf (matmul (DotDims.plain M H N) none
          (maximumf (addf (matmul (DotDims.plain M K H) none x w₁ (constant (⟨2, ![M, H]⟩ : Shape) .f32 0x00000000#32))
            (broadcastTo (⟨2, ![M, H]⟩ : Shape) b₁ hb₁)) (broadcast (⟨2, ![M, H]⟩ : Shape) z))
          w₂ (constant (⟨2, ![M, N]⟩ : Shape) .f32 0x00000000#32))
        (broadcastTo (⟨2, ![M, N]⟩ : Shape) b₂ hb₂) (ix2 e j)
      = mlp2Rows z x (fun k n => w₁ (ix2 k n)) (fun n => b₁ (ix2 (0 : Fin 1) n)) (fun k n => w₂ (ix2 k n))
          (fun n => b₂ (ix2 (0 : Fin 1) n)) (ix2 e j) := by
  rw [mlp2Rows_ix2, Cert.LibMlpRows.unit_layer_apply]
  unfold mlp2
  congr 1
  funext k
  rw [Cert.LibMlpRows.act_apply, Cert.LibMlpRows.unit_layer_apply]
  rfl

/-- The host's network: two of its layers with a broadcast constant as the threshold between them; at row e and
    column j. -/
theorem host_mlp2_apply {M K H N : ℕ} {φ₁ φ₂ φ₃ : FTy} (x : FVec Ideal ⟨2, ![M, K]⟩ φ₁) (w₁ : FVec Ideal ⟨2, ![K, H]⟩ φ₂)
    (b₁ : FVec Ideal ⟨1, ![H]⟩ .f32) (w₂ : FVec Ideal ⟨2, ![H, N]⟩ φ₃) (b₂ : FVec Ideal ⟨1, ![N]⟩ .f32)
    (h₁ : (⟨1, ![H]⟩ : Shape).BroadcastsInDim ⟨2, ![1, H]⟩ ![1])
    (h₂ : (⟨2, ![1, H]⟩ : Shape).BroadcastsInDim ⟨2, ![M, H]⟩ ![0, 1])
    (h₀ : (⟨0, ![]⟩ : Shape).BroadcastsInDim ⟨2, ![M, H]⟩ ![])
    (g₁ : (⟨1, ![N]⟩ : Shape).BroadcastsInDim ⟨2, ![1, N]⟩ ![1])
    (g₂ : (⟨2, ![1, N]⟩ : Shape).BroadcastsInDim ⟨2, ![M, N]⟩ ![0, 1]) (wz : BitVec 32) (e : Fin M) (j : Fin N) :
    addf (Host.dotGeneral (DotDims.plain M H N) none
          (maximumf (addf (Host.dotGeneral (DotDims.plain M K H) none x w₁)
            (broadcastInDim (⟨2, ![M, H]⟩ : Shape) ![0, 1] h₂ (broadcastInDim (⟨2, ![1, H]⟩ : Shape) ![1] h₁ b₁)))
            (broadcastInDim (⟨2, ![M, H]⟩ : Shape) ![] h₀ (constant (F := Ideal) (⟨0, ![]⟩ : Shape) .f32 wz)))
          w₂)
        (broadcastInDim (⟨2, ![M, N]⟩ : Shape) ![0, 1] g₂ (broadcastInDim (⟨2, ![1, N]⟩ : Shape) ![1] g₁ b₂)) (ix2 e j)
      = mlp2Rows (Ideal.ofBits .f32 wz) x (fun k n => w₁ (ix2 k n)) (fun n => b₁ (ix1 n)) (fun k n => w₂ (ix2 k n))
          (fun n => b₂ (ix1 n)) (ix2 e j) := by
  rw [mlp2Rows_ix2, Cert.LibMlpRows.host_layer_apply]
  unfold mlp2
  congr 1
  funext k
  rw [maximumf_apply, Cert.LibMlpRows.splat_const_apply, Cert.LibMlpRows.host_layer_apply]
  rfl

/-- The network on the rows of a block x, at an element y, is the network on the rows of the whole matrix X at an
    element i, when row y₀ of x is row i₀ of X and the two elements are in the same column. -/
theorem mlp2Rows_block {M M' K H N : ℕ} (z : EReal) (X : (⟨2, ![M, K]⟩ : Shape).Idx → EReal)
    (x : (⟨2, ![M', K]⟩ : Shape).Idx → EReal) (w₁ : Fin K → Fin H → EReal) (b₁ : Fin H → EReal)
    (w₂ : Fin H → Fin N → EReal) (b₂ : Fin N → EReal)
    (y : (⟨2, ![M', N]⟩ : Shape).Idx) (i : (⟨2, ![M, N]⟩ : Shape).Idx)
    (hrow : ∀ k : Fin K, x (ix2 (n0 := M') (y 0) k) = X (ix2 (n0 := M) (i 0) k)) (hcol : (y 1).val = (i 1).val) :
    mlp2Rows z x w₁ b₁ w₂ b₂ y = mlp2Rows z X w₁ b₁ w₂ b₂ i := by
  unfold mlp2Rows
  have hx : (fun k => x (ix2 (n0 := M') (y 0) k)) = fun k => X (ix2 (n0 := M) (i 0) k) := funext hrow
  rw [hx]
  exact congrArg _ (Fin.ext hcol)

end Cert.LibGineConv

end
-- ==== Proof.EdgeValue2.lean ====
/- The second message region, read as one function of the arrays it is entered with. -/
import proofs.«156036_j43258910605922_1_alg».proof.Proof.Gen.KernelIdeal.Frame
import proofs.«156036_j43258910605922_1_alg».proof.Proof.LibGineConv

set_option maxRecDepth 16384

noncomputable section

namespace Cert.KernelIdeal.EdgeValue2

open Cert.KernelIdeal Cert.KernelIdeal.Gen
open Idealize.ShloMosaic Idealize.ShloMosaic.TcCoe Idealize.ShloMosaic.ValueIdx Idealize.SL.Sem
open Cert.LibGineConv

variable (V : (c : Dev nD) → (b : Ref sig .tc) → Buf (Elt Ideal) ((c : Thread nD τ).loc b))

/-- The offsets of a rectangle that starts at the origin, as the constant function zero. -/
private theorem origin : (![0, 0] : Fin 2 → Nat) = fun _ => 0 := funext fun a => by fin_cases a <;> rfl

/-- What one grid point computes from its four blocks, at row e and column j: the message of edge e of the block,
    max ((xs(e, j) + ∑ₖ a(e, k) · w(k, j)) + bⱼ, 0), now with 128 columns. The casts to the same shape and the narrowing
    of the attributes are the identity on the extended reals. -/
private theorem payload_apply (a : Vec Ideal S8000x16 .f32) (w : Vec Ideal S16x128 .bf16) (xs : Vec Ideal S8000x128 .f32)
    (b : Vec Ideal S1x128 .f32) (e : Fin 8000) (j : Fin 128) :
    Gen.k2_pay1 a w xs b (ix2 e j)
      = edgeMsg (E := 8000) (K := 16) (D := 128) (Ideal.ofBits .f32 0x00000000#32) a xs
          (fun k n => w (ix2 k n)) (fun n => b (ix2 (0 : Fin 1) n)) (ix2 e j) := by
  unfold Gen.k2_pay1
  simp only [shapeCast_self]
  exact unit_edgeMsg_apply (truncf .bf16 a bitsLt_bf16_f32) w xs b broadcasts_S1x128_S8000x128
    (Scalar.ofBits .f32 0x00000000#32) e j

/-- From a block of 8000 edges to all 800000: when row p of the block's attributes is row i₀ of the whole attribute
    matrix, the block's gathered feature at (p, q) is the whole one at i, the weights and the bias are the whole ones,
    and q is the column i₁, the block's message at (p, q) is the message of all edges at i. -/
private theorem payload_block (A : S800000x16.Idx → EReal) (XS : S800000x128.Idx → EReal) (Wt : S16x128.Idx → EReal)
    (B : S1x128.Idx → EReal) (a : Vec Ideal S8000x16 .f32) (w : Vec Ideal S16x128 .bf16) (xs : Vec Ideal S8000x128 .f32)
    (b : Vec Ideal S1x128 .f32) (p : Fin 8000) (q : Fin 128) (i : S800000x128.Idx)
    (hrow : ∀ k : Fin 16, a (ix2 p k) = A (ix2 (n0 := 800000) (i 0) k)) (hx : xs (ix2 p q) = XS i)
    (hw : ∀ (k : Fin 16) (n : Fin 128), w (ix2 k n) = Wt (ix2 k n))
    (hb : ∀ n : Fin 128, b (ix2 (0 : Fin 1) n) = B (ix2 (0 : Fin 1) n)) (hcol : q.val = (i 1).val) :
    Gen.k2_pay1 a w xs b (ix2 p q)
      = edgeMsg (E := 800000) (K := 16) (D := 128) (Ideal.ofBits .f32 0x00000000#32) A XS
          (fun k n => Wt (ix2 k n)) (fun n => B (ix2 (0 : Fin 1) n)) i := by
  have hw' : (fun (k : Fin 16) (n : Fin 128) => w (ix2 k n)) = fun k n => Wt (ix2 k n) :=
    funext fun k => funext fun n => hw k n
  have hb' : (fun n : Fin 128 => b (ix2 (0 : Fin 1) n)) = fun n => B (ix2 (0 : Fin 1) n) := funext hb
  rw [payload_apply, hw', hb']
  exact edgeMsg_block _ A a XS xs _ _ (ix2 p q) i hrow hx hcol

/-- The block indices at grid point t: the attributes, the gathered features and the messages are all cut into blocks
    of 8000 rows and point t takes block t of each, over all the columns; the weights and the bias are one block. -/
private theorem block_indices : ∀ t : Fin cfg2.N,
      win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The messages of all 800000 edges, of the arrays the region is entered with. -/
private abbrev messages (c : Dev nD) : S800000x128.Idx → EReal :=
  edgeMsg (E := 800000) (K := 16) (D := 128) (Ideal.ofBits .f32 0x00000000#32) (V c main_arg2) (V c main_v32)
    (fun k n => V c main_v33 (ix2 k n)) (fun n => V c main_v34 (ix2 (0 : Fin 1) n))

/-- What grid point t writes back is block t of the messages of all edges: element (p, q) of a block sits in its array
    at row (block index) · 8000 + p and column q, the attribute and feature blocks of point t are rows
    8000 t … 8000 t + 7999 as the message block is, and the weight and bias blocks are the whole arrays. -/
private theorem flushed_eq (c : Dev nD) (t : Fin cfg2.N) :
    (Gen.dat2 (F := Ideal) V c).flushed 4 t = ((cfg2.win 4).blk t).view.read (Elt Ideal) (messages V c) := by
  show (cfg2.win 4).cut (grid2.coords t) ((Gen.dat2 (F := Ideal) V c).after 4 t) = _
  rw [after2_4]
  unfold out2_4
  rw [View.canon_unit_zero origin]
  simp only [View.ld_unit_zero (S := S8000x16) origin, View.ld_unit_zero (S := S8000x128) origin,
    View.ld_unit_zero (S := S16x128) origin, View.ld_unit_zero (S := S1x128) origin]
  obtain ⟨e00, e01, e10, e11, e20, e21, e30, e31, e40, e41⟩ := block_indices t
  funext y
  show Gen.k2_pay1 (iblk2 V c 0 t) (iblk2 V c 2 t) (iblk2 V c 1 t) (iblk2 V c 3 t) y
    = messages V c (((cfg2.win 4).blk t).view.emb y)
  obtain ⟨p, q, rfl⟩ : ∃ (p : Fin 8000) (q : Fin 128), y = ix2 p q := ⟨y 0, y 1, eq_ix2 y⟩
  have hp : p.val < 8000 := p.isLt
  have hq : q.val < 128 := q.isLt
  refine payload_block _ _ _ _ _ _ _ _ p q _ (fun k => ?_) ?_ (fun k n => ?_) (fun n => ?_) ?_
  · show V c main_arg2 (((cfg2.win 0).blk t).view.emb (ix2 p k))
      = V c main_arg2 (ix2 ((((cfg2.win 4).blk t).view.emb (ix2 p q)) 0) k)
    refine congrArg _ (funext fun a => Fin.ext ?_)
    match a with
    | ⟨0, _⟩ =>
      show win2_0.index t (0 : Fin 2) * 8000 + 1 * p.val = win2_4.index t (0 : Fin 2) * 8000 + 1 * p.val
      omega
    | ⟨1, _⟩ =>
      show win2_0.index t (1 : Fin 2) * 16 + 1 * k.val = k.val
      omega
  · show V c main_v32 (((cfg2.win 1).blk t).view.emb (ix2 p q)) = V c main_v32 (((cfg2.win 4).blk t).view.emb (ix2 p q))
    refine congrArg _ (funext fun a => Fin.ext ?_)
    match a with
    | ⟨0, _⟩ =>
      show win2_1.index t (0 : Fin 2) * 8000 + 1 * p.val = win2_4.index t (0 : Fin 2) * 8000 + 1 * p.val
      omega
    | ⟨1, _⟩ =>
      show win2_1.index t (1 : Fin 2) * 128 + 1 * q.val = win2_4.index t (1 : Fin 2) * 128 + 1 * q.val
      omega
  · show V c main_v33 (((cfg2.win 2).blk t).view.emb (ix2 k n)) = V c main_v33 (ix2 k n)
    refine congrArg _ (funext fun a => Fin.ext ?_)
    match a with
    | ⟨0, _⟩ =>
      show win2_2.index t (0 : Fin 2) * 16 + 1 * k.val = k.val
      omega
    | ⟨1, _⟩ =>
      show win2_2.index t (1 : Fin 2) * 128 + 1 * n.val = n.val
      omega
  · show V c main_v34 (((cfg2.win 3).blk t).view.emb (ix2 (0 : Fin 1) n)) = V c main_v34 (ix2 (0 : Fin 1) n)
    refine congrArg _ (funext fun a => Fin.ext ?_)
    match a with
    | ⟨0, _⟩ =>
      show win2_3.index t (0 : Fin 2) * 1 + 1 * 0 = 0
      omega
    | ⟨1, _⟩ =>
      show win2_3.index t (1 : Fin 2) * 128 + 1 * n.val = n.val
      omega
  · show q.val = win2_4.index t (1 : Fin 2) * 128 + 1 * q.val
    omega

/-- An index of the message array is in point t's block when each coordinate is in the block's range on its axis. -/
private theorem mem_block (t : Fin cfg2.N) (i : S800000x128.Idx) :
    i ∈ ((cfg2.win 4).blk t).view.set ↔ ∀ a : Fin 2, win2_4.index t a * S8000x128.size a ≤ (i a).val
      ∧ (i a).val < win2_4.index t a * S8000x128.size a + S8000x128.size a := by
  show i ∈ ((View.whole main_v35).slice (win2_4.rect t)).set ↔ _
  rw [View.set_slice_whole, Rect.mem_set_unit]
  exact Iff.rfl

/-- Every edge is in some point's block: edge r in the block of point r / 8000, and there are 800000 / 8000 = 100 points. -/
private theorem blocks_cover (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  obtain ⟨t, ht⟩ : ∃ t : Fin cfg2.N, t.val = (i 0).val / 8000 :=
    ⟨⟨(i 0).val / 8000, by rw [show cfg2.N = 100 from N_2]; omega⟩, rfl⟩
  obtain ⟨-, -, -, -, -, -, -, -, e40, e41⟩ := block_indices t
  refine ⟨t, flush2_4 t, ?_⟩
  rw [mem_block]
  intro a
  match a with
  | ⟨0, _⟩ =>
    show win2_4.index t (0 : Fin 2) * 8000 ≤ (i 0).val ∧ (i 0).val < win2_4.index t (0 : Fin 2) * 8000 + 8000
    omega
  | ⟨1, _⟩ =>
    show win2_4.index t (1 : Fin 2) * 128 ≤ (i 1).val ∧ (i 1).val < win2_4.index t (1 : Fin 2) * 128 + 128
    omega

/-- The message array after the region: the message of all 800000 edges, of the arrays the region was entered with. -/
theorem arr_out (c : Dev nD) :
    (Gen.dat2 (F := Ideal) V c).arrAt 4 cfg2.N
      = edgeMsg (E := 800000) (K := 16) (D := 128) (Ideal.ofBits .f32 0x00000000#32) (V c main_arg2) (V c main_v32)
          (fun k n => V c main_v33 (ix2 k n)) (fun n => V c main_v34 (ix2 (0 : Fin 1) n)) := by
  exact (Gen.dat2 (F := Ideal) V c).arrAt_eq_of_cover 4 (messages V c) (fun t _ => flushed_eq V c t) blocks_cover

end Cert.KernelIdeal.EdgeValue2

end
-- ==== Proof.MlpValue3.lean ====
/- The second node-update region, read as one function of the arrays it is entered with. -/
import proofs.«156036_j43258910605922_1_alg».proof.Proof.Gen.KernelIdeal.Frame
import proofs.«156036_j43258910605922_1_alg».proof.Proof.LibGineConv

set_option maxRecDepth 16384

noncomputable section

namespace Cert.KernelIdeal.MlpValue3

open Cert.KernelIdeal Cert.KernelIdeal.Gen
open Idealize.ShloMosaic Idealize.ShloMosaic.TcCoe Idealize.ShloMosaic.ValueIdx Idealize.SL.Sem
open Cert.LibGineConv

variable (V : (c : Dev nD) → (b : Ref sig .tc) → Buf (Elt Ideal) ((c : Thread nD τ).loc b))
/-! ## The network at one element of a block -/

/-- Both products' dimension numbers are the plain ones: rows by columns, one contracted coordinate. -/
private theorem dot_plain : dot_S5000x128_S128x128_S5000x128_1_0_0_1_n_n = DotDims.plain 5000 128 128 := rfl

/-- Over the extended reals a change of format is the identity. -/
private theorem truncf_id {s : Shape} {φ ψ : FTy} (a : FVec Ideal s φ) (h : ψ.bits < φ.bits) :
    (truncf ψ a h : FVec Ideal s ψ) = a := rfl

/-- What a point computes from its blocks, at row e and column j of the block: the two-layer network on row e of the
    block of nodes, with the two weight matrices and the two one-row biases as it holds them. -/
private theorem pay_apply (v0 : Vec Ideal S5000x128 .f32) (v3 : Vec Ideal S128x128 .bf16) (v6 : Vec Ideal S1x128 .f32)
    (v13 : Vec Ideal S128x128 .bf16) (v16 : Vec Ideal S1x128 .f32) (e : Fin 5000) (j : Fin 128) :
    Gen.k3_pay1 (F := Ideal) v0 v3 v6 v13 v16 (ix2 e j)
      = mlp2Rows (M := 5000) (K := 128) (H := 128) (N := 128) (Ideal.ofBits .f32 0x00000000#32) v0
          (fun k n => v3 (ix2 k n)) (fun n => v6 (ix2 (0 : Fin 1) n))
          (fun k n => v13 (ix2 k n)) (fun n => v16 (ix2 (0 : Fin 1) n)) (ix2 e j) := by
  unfold Gen.k3_pay1
  simp only [shapeCast_self, truncf_id]
  rw [dot_plain]
  exact unit_mlp2_apply (M := 5000) (K := 128) (H := 128) (N := 128) (φ₁ := .f32) (φ₂ := .bf16) (φ₃ := .bf16)
    v0 v3 v6 v13 v16 _ _ _ e j

/-! ## Where the blocks sit in their arrays -/

private theorem hz : (![0, 0] : Fin 2 → Nat) = fun _ => 0 := funext fun a => by fin_cases a <;> rfl

/-- The block indices at point t, over the ten points: the node blocks (input and output) are block (t, 0) of their
    arrays; the two weight matrices and the two biases are block (0, 0), the whole array. -/
private theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row e of point t's block of nodes is row 5000 t + e of the node array. -/
private theorem blk_x (c : Dev nD) (t : Fin cfg3.N) (e : Fin 5000) (k : Fin 128) (r : Fin 50000)
    (hr : r.val = t.val * 5000 + e.val) :
    (iblk3 V c 0 t : Vec Ideal S5000x128 .f32) (ix2 e k) = V c main_v41 (ix2 r k) := by
  obtain ⟨h00, h01, -⟩ := idx_facts t
  unfold iblk3
  rw [View.read_apply]
  show V c main_v41 _ = V c main_v41 _
  congr 1
  funext a
  apply Fin.ext
  match a with
  | ⟨0, _⟩ => show win3_0.index t (0 : Fin 2) * 5000 + 1 * e.val = r.val; omega
  | ⟨1, _⟩ => show win3_0.index t (1 : Fin 2) * 128 + 1 * k.val = k.val; omega

/-- The first weight matrix's block is the whole matrix. -/
private theorem blk_w1 (c : Dev nD) (t : Fin cfg3.N) (k : Fin 128) (n : Fin 128) :
    (iblk3 V c 1 t : Vec Ideal S128x128 .bf16) (ix2 k n) = V c main_v42 (ix2 k n) := by
  obtain ⟨-, -, h0, h1, -⟩ := idx_facts t
  unfold iblk3
  rw [View.read_apply]
  show V c main_v42 _ = V c main_v42 _
  congr 1
  funext a
  apply Fin.ext
  match a with
  | ⟨0, _⟩ => show win3_1.index t (0 : Fin 2) * 128 + 1 * k.val = k.val; omega
  | ⟨1, _⟩ => show win3_1.index t (1 : Fin 2) * 128 + 1 * n.val = n.val; omega

/-- The first bias's block is the whole row. -/
private theorem blk_b1 (c : Dev nD) (t : Fin cfg3.N) (n : Fin 128) :
    (iblk3 V c 2 t : Vec Ideal S1x128 .f32) (ix2 (0 : Fin 1) n) = V c main_v44 (ix2 (0 : Fin 1) n) := by
  obtain ⟨-, -, -, -, h0, h1, -⟩ := idx_facts t
  unfold iblk3
  rw [View.read_apply]
  show V c main_v44 _ = V c main_v44 _
  congr 1
  funext a
  apply Fin.ext
  match a with
  | ⟨0, _⟩ => show win3_2.index t (0 : Fin 2) * 1 + 1 * 0 = 0; omega
  | ⟨1, _⟩ => show win3_2.index t (1 : Fin 2) * 128 + 1 * n.val = n.val; omega

/-- The second weight matrix's block is the whole matrix. -/
private theorem blk_w2 (c : Dev nD) (t : Fin cfg3.N) (k : Fin 128) (n : Fin 128) :
    (iblk3 V c 3 t : Vec Ideal S128x128 .bf16) (ix2 k n) = V c main_v43 (ix2 k n) := by
  obtain ⟨-, -, -, -, -, -, h0, h1, -⟩ := idx_facts t
  unfold iblk3
  rw [View.read_apply]
  show V c main_v43 _ = V c main_v43 _
  congr 1
  funext a
  apply Fin.ext
  match a with
  | ⟨0, _⟩ => show win3_3.index t (0 : Fin 2) * 128 + 1 * k.val = k.val; omega
  | ⟨1, _⟩ => show win3_3.index t (1 : Fin 2) * 128 + 1 * n.val = n.val; omega

/-- The second bias's block is the whole row. -/
private theorem blk_b2 (c : Dev nD) (t : Fin cfg3.N) (n : Fin 128) :
    (iblk3 V c 4 t : Vec Ideal S1x128 .f32) (ix2 (0 : Fin 1) n) = V c main_v45 (ix2 (0 : Fin 1) n) := by
  obtain ⟨-, -, -, -, -, -, -, -, h0, h1, -⟩ := idx_facts t
  unfold iblk3
  rw [View.read_apply]
  show V c main_v45 _ = V c main_v45 _
  congr 1
  funext a
  apply Fin.ext
  match a with
  | ⟨0, _⟩ => show win3_4.index t (0 : Fin 2) * 1 + 1 * 0 = 0; omega
  | ⟨1, _⟩ => show win3_4.index t (1 : Fin 2) * 128 + 1 * n.val = n.val; omega

/-! ## What each point writes back, and the whole array -/

/-- What point t writes back is block (t, 0) of the network applied to every row of the node array: element (e, j) of
    the block depends on row e of the block of nodes, which is row 5000 t + e of the array, and on the whole weights and
    biases; the column is the same. -/
private theorem flushed_eq (c : Dev nD) (t : Fin cfg3.N) :
    (Gen.dat3 (F := Ideal) V c).flushed 5 t = ((cfg3.win 5).blk t).view.read (Elt Ideal)
      (mlp2Rows (M := 50000) (K := 128) (H := 128) (N := 128) (Ideal.ofBits .f32 0x00000000#32) (V c main_v41)
          (fun k n => V c main_v42 (ix2 k n)) (fun n => V c main_v44 (ix2 (0 : Fin 1) n))
          (fun k n => V c main_v43 (ix2 k n)) (fun n => V c main_v45 (ix2 (0 : Fin 1) n))) := by
  show (cfg3.win 5).cut (grid3.coords t) ((Gen.dat3 (F := Ideal) V c).after 5 t) = _
  rw [after3_5]
  unfold out3_5
  rw [View.canon_unit_zero hz]
  simp only [View.ld_unit_zero (S := S5000x128) hz, View.ld_unit_zero (S := S128x128) hz, View.ld_unit_zero (S := S1x128) hz]
  funext y
  obtain ⟨e, j, rfl⟩ : ∃ (e : Fin 5000) (j : Fin 128), y = ix2 e j := ⟨y 0, y 1, eq_ix2 y⟩
  refine (pay_apply (iblk3 V c 0 t) (iblk3 V c 1 t) (iblk3 V c 2 t) (iblk3 V c 3 t) (iblk3 V c 4 t) e j).trans ?_
  have hw1 : (fun (k : Fin 128) (n : Fin 128) => (iblk3 V c 1 t : Vec Ideal S128x128 .bf16) (ix2 k n))
      = fun k n => V c main_v42 (ix2 k n) := funext fun k => funext fun n => blk_w1 V c t k n
  have hb1 : (fun (n : Fin 128) => (iblk3 V c 2 t : Vec Ideal S1x128 .f32) (ix2 (0 : Fin 1) n))
      = fun n => V c main_v44 (ix2 (0 : Fin 1) n) := funext fun n => blk_b1 V c t n
  have hw2 : (fun (k : Fin 128) (n : Fin 128) => (iblk3 V c 3 t : Vec Ideal S128x128 .bf16) (ix2 k n))
      = fun k n => V c main_v43 (ix2 k n) := funext fun k => funext fun n => blk_w2 V c t k n
  have hb2 : (fun (n : Fin 128) => (iblk3 V c 4 t : Vec Ideal S1x128 .f32) (ix2 (0 : Fin 1) n))
      = fun n => V c main_v45 (ix2 (0 : Fin 1) n) := funext fun n => blk_b2 V c t n
  rw [hw1, hb1, hw2, hb2, View.read_apply]
  obtain ⟨-, -, -, -, -, -, -, -, -, -, h50, h51⟩ := idx_facts t
  refine mlp2Rows_block (M := 50000) (M' := 5000) _ (V c main_v41) (iblk3 V c 0 t) _ _ _ _ (ix2 e j) _ (fun k => ?_) ?_
  · refine blk_x V c t e k _ ?_
    show win3_5.index t (0 : Fin 2) * 5000 + 1 * e.val = t.val * 5000 + e.val
    omega
  · show j.val = win3_5.index t (1 : Fin 2) * 128 + 1 * j.val
    omega

/-- An element of the output array is in point t's block iff each of its coordinates is in the block's range. -/
private theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v46).slice (win3_5.rect t)).set ↔ _
  rw [View.set_slice_whole, Rect.mem_set_unit]
  exact Iff.rfl

/-- Every element of the output array is in some point's block: row r is in the block of point r / 5000. -/
private theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  have ht : (i 0).val / 5000 < cfg3.N := by rw [hN]; omega
  refine ⟨⟨(i 0).val / 5000, ht⟩, flush3_5 _, ?_⟩
  rw [mem_blk]
  obtain ⟨-, -, -, -, -, -, -, -, -, -, h50, h51⟩ := idx_facts ⟨(i 0).val / 5000, ht⟩
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [h50]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [h51]
    omega

/-- The node array after the region: the two-layer network on each of the 50000 rows of the array the region was entered with. -/
theorem arr_out (c : Dev nD) :
    (Gen.dat3 (F := Ideal) V c).arrAt 5 cfg3.N
      = mlp2Rows (M := 50000) (K := 128) (H := 128) (N := 128) (Ideal.ofBits .f32 0x00000000#32) (V c main_v41)
          (fun k n => V c main_v42 (ix2 k n)) (fun n => V c main_v44 (ix2 (0 : Fin 1) n))
          (fun k n => V c main_v43 (ix2 k n)) (fun n => V c main_v45 (ix2 (0 : Fin 1) n)) := by
  exact (Gen.dat3 (F := Ideal) V c).arrAt_eq_of_cover 5 _ (fun t _ => flushed_eq V c t) cover

end Cert.KernelIdeal.MlpValue3

end
-- ==== Proof.RefStages.lean ====
/- The reference's four dense stages, each read as one function of the stage before it: the two message stages as the
   message of all edges, the two node updates as the two-layer network on every row. -/
import proofs.«156036_j43258910605922_1_alg».proof.Proof.Gen.ReferenceIdeal.Read
import proofs.«156036_j43258910605922_1_alg».proof.Proof.LibGineConv

set_option maxRecDepth 16384

noncomputable section

namespace Cert.ReferenceIdeal.Stages

open Cert.ReferenceIdeal Cert.ReferenceIdeal.Read
open Idealize.ShloMosaic Idealize.ShloMosaic.TcCoe Idealize.ShloMosaic.ValueIdx Idealize.SL.Sem
open Cert.LibGineConv

/-- The first message stage is the message of all edges over the gathered node features. -/
theorem v16_eq (x0 : (⟨S50000x96, .f32⟩ : BufTy).Contents (Elt Ideal)) (x1 : (⟨S2x800000, .i32⟩ : BufTy).Contents (Elt Ideal)) (x2 : (⟨S800000x16, .f32⟩ : BufTy).Contents (Elt Ideal)) (x4 : (⟨S16x96, .f32⟩ : BufTy).Contents (Elt Ideal)) (x5 : (⟨S96, .f32⟩ : BufTy).Contents (Elt Ideal)) :
    val_main_v16 (F := Ideal) x0 x1 x2 x4 x5
      = edgeMsg (E := 800000) (K := 16) (D := 96) (Ideal.ofBits .f32 0x00000000#32) x2 (val_main_v10 (F := Ideal) x0 x1)
          (fun k n => x4 (ix2 k n)) (fun n => x5 (ix1 n)) := by
  funext i
  obtain ⟨e, j, rfl⟩ : ∃ (e : Fin 800000) (j : Fin 96), i = ix2 e j := ⟨i 0, i 1, eq_ix2 i⟩
  simp only [val_main_v16, val_main_v15, val_main_v12, val_main_v11, val_main_v14, val_main_v13, val_main_call0_v0,
    val_main_call0_cst]
  generalize val_main_v10 (F := Ideal) x0 x1 = xs
  have hd : dot_S800000x16_S16x96_S800000x96_1_0_0_1_n_n = DotDims.plain 800000 16 96 := rfl
  rw [hd]
  exact host_edgeMsg_apply x2 x4 xs x5 Gen.bcast_S96_S1x96_1 Gen.bcast_S1x96_S800000x96_0_1 Gen.bcast_S_S800000x96
    0x00000000#32 e j

/-- The first node update is the two-layer network on every row of the aggregated features. -/
theorem v31_eq (x0 : (⟨S50000x96, .f32⟩ : BufTy).Contents (Elt Ideal)) (x1 : (⟨S2x800000, .i32⟩ : BufTy).Contents (Elt Ideal)) (x2 : (⟨S800000x16, .f32⟩ : BufTy).Contents (Elt Ideal)) (x4 : (⟨S16x96, .f32⟩ : BufTy).Contents (Elt Ideal)) (x5 : (⟨S96, .f32⟩ : BufTy).Contents (Elt Ideal)) (x6 : (⟨S96x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v31 (F := Ideal) x0 x1 x2 x4 x5 x6 x7 x8 x9
      = mlp2Rows (M := 50000) (K := 96) (H := 128) (N := 128) (Ideal.ofBits .f32 0x00000000#32) (val_main_v22 (F := Ideal) x0 x1 x2 x4 x5)
          (fun k n => x6 (ix2 k n)) (fun n => x7 (ix1 n)) (fun k n => x8 (ix2 k n)) (fun n => x9 (ix1 n)) := by
  funext i
  obtain ⟨e, j, rfl⟩ : ∃ (e : Fin 50000) (j : Fin 128), i = ix2 e j := ⟨i 0, i 1, eq_ix2 i⟩
  simp only [val_main_v31, val_main_v30, val_main_v29, val_main_v28, val_main_v27, val_main_v26, val_main_v25,
    val_main_v24, val_main_v23, val_main_call1_v0, val_main_call1_cst]
  generalize val_main_v22 (F := Ideal) x0 x1 x2 x4 x5 = xs
  have hd₁ : dot_S50000x96_S96x128_S50000x128_1_0_0_1_n_n = DotDims.plain 50000 96 128 := rfl
  have hd₂ : dot_S50000x128_S128x128_S50000x128_1_0_0_1_n_n = DotDims.plain 50000 128 128 := rfl
  rw [hd₁, hd₂]
  exact host_mlp2_apply xs x6 x7 x8 x9 Gen.bcast_S128_S1x128_1 Gen.bcast_S1x128_S50000x128_0_1 Gen.bcast_S_S50000x128
    Gen.bcast_S128_S1x128_1 Gen.bcast_S1x128_S50000x128_0_1 0x00000000#32 e j

/-- The second message stage is the message of all edges over the gathered hidden features. -/
theorem v45_eq (x0 : (⟨S50000x96, .f32⟩ : BufTy).Contents (Elt Ideal)) (x1 : (⟨S2x800000, .i32⟩ : BufTy).Contents (Elt Ideal)) (x2 : (⟨S800000x16, .f32⟩ : BufTy).Contents (Elt Ideal)) (x4 : (⟨S16x96, .f32⟩ : BufTy).Contents (Elt Ideal)) (x5 : (⟨S96, .f32⟩ : BufTy).Contents (Elt Ideal)) (x6 : (⟨S96x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S16x128, .f32⟩ : BufTy).Contents (Elt Ideal)) (x11 : (⟨S128, .f32⟩ : BufTy).Contents (Elt Ideal)) :
    val_main_v45 (F := Ideal) x0 x1 x2 x4 x5 x6 x7 x8 x9 x10 x11
      = edgeMsg (E := 800000) (K := 16) (D := 128) (Ideal.ofBits .f32 0x00000000#32) x2 (val_main_v39 (F := Ideal) x0 x1 x2 x4 x5 x6 x7 x8 x9)
          (fun k n => x10 (ix2 k n)) (fun n => x11 (ix1 n)) := by
  funext i
  obtain ⟨e, j, rfl⟩ : ∃ (e : Fin 800000) (j : Fin 128), i = ix2 e j := ⟨i 0, i 1, eq_ix2 i⟩
  simp only [val_main_v45, val_main_v44, val_main_v41, val_main_v40, val_main_v43, val_main_v42, val_main_call3_v0,
    val_main_call3_cst]
  generalize val_main_v39 (F := Ideal) x0 x1 x2 x4 x5 x6 x7 x8 x9 = xs
  have hd : dot_S800000x16_S16x128_S800000x128_1_0_0_1_n_n = DotDims.plain 800000 16 128 := rfl
  rw [hd]
  exact host_edgeMsg_apply x2 x10 xs x11 Gen.bcast_S128_S1x128_1 Gen.bcast_S1x128_S800000x128_0_1
    Gen.bcast_S_S800000x128 0x00000000#32 e j

/-- The second node update is the two-layer network on every row of the aggregated hidden features. -/
theorem v60_eq (x0 : (⟨S50000x96, .f32⟩ : BufTy).Contents (Elt Ideal)) (x1 : (⟨S2x800000, .i32⟩ : BufTy).Contents (Elt Ideal)) (x2 : (⟨S800000x16, .f32⟩ : BufTy).Contents (Elt Ideal)) (x4 : (⟨S16x96, .f32⟩ : BufTy).Contents (Elt Ideal)) (x5 : (⟨S96, .f32⟩ : BufTy).Contents (Elt Ideal)) (x6 : (⟨S96x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S16x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    val_main_v60 (F := Ideal) x0 x1 x2 x4 x5 x6 x7 x8 x9 x10 x11 x12 x13 x14 x15
      = mlp2Rows (M := 50000) (K := 128) (H := 128) (N := 128) (Ideal.ofBits .f32 0x00000000#32) (val_main_v51 (F := Ideal) x0 x1 x2 x4 x5 x6 x7 x8 x9 x10 x11)
          (fun k n => x12 (ix2 k n)) (fun n => x13 (ix1 n)) (fun k n => x14 (ix2 k n)) (fun n => x15 (ix1 n)) := by
  funext i
  obtain ⟨e, j, rfl⟩ : ∃ (e : Fin 50000) (j : Fin 128), i = ix2 e j := ⟨i 0, i 1, eq_ix2 i⟩
  simp only [val_main_v60, val_main_v59, val_main_v58, val_main_v57, val_main_v56, val_main_v55, val_main_v54,
    val_main_v53, val_main_v52, val_main_call4_v0, val_main_call4_cst]
  generalize val_main_v51 (F := Ideal) x0 x1 x2 x4 x5 x6 x7 x8 x9 x10 x11 = xs
  have hd : dot_S50000x128_S128x128_S50000x128_1_0_0_1_n_n = DotDims.plain 50000 128 128 := rfl
  rw [hd]
  exact host_mlp2_apply xs x12 x13 x14 x15 Gen.bcast_S128_S1x128_1 Gen.bcast_S1x128_S50000x128_0_1
    Gen.bcast_S_S50000x128 Gen.bcast_S128_S1x128_1 Gen.bcast_S1x128_S50000x128_0_1 0x00000000#32 e j

end Cert.ReferenceIdeal.Stages

end
-- ==== Proof.EdgeValue0.lean ====
/- The first message region, read as one function of the arrays it is entered with. -/
import proofs.«156036_j43258910605922_1_alg».proof.Proof.Gen.KernelIdeal.Frame
import proofs.«156036_j43258910605922_1_alg».proof.Proof.LibGineConv

set_option maxRecDepth 16384

noncomputable section

namespace Cert.KernelIdeal.EdgeValue0

open Cert.KernelIdeal Cert.KernelIdeal.Gen
open Idealize.ShloMosaic Idealize.ShloMosaic.TcCoe Idealize.ShloMosaic.ValueIdx Idealize.SL.Sem
open Cert.LibGineConv

variable (V : (c : Dev nD) → (b : Ref sig .tc) → Buf (Elt Ideal) ((c : Thread nD τ).loc b))

/-- The offsets of a rectangle that starts at the origin, as the constant function zero. -/
private theorem origin : (![0, 0] : Fin 2 → Nat) = fun _ => 0 := funext fun a => by fin_cases a <;> rfl

/-- What one grid point computes from its four blocks, at row e and column j: the message of edge e of the block,
    max ((xs(e, j) + ∑ₖ a(e, k) · w(k, j)) + bⱼ, 0). The casts to the same shape and the narrowing of the attributes
    are the identity on the extended reals. -/
private theorem payload_apply (a : Vec Ideal S8000x16 .f32) (w : Vec Ideal S16x96 .bf16) (xs : Vec Ideal S8000x96 .f32)
    (b : Vec Ideal S1x96 .f32) (e : Fin 8000) (j : Fin 96) :
    Gen.k0_pay1 a w xs b (ix2 e j)
      = edgeMsg (E := 8000) (K := 16) (D := 96) (Ideal.ofBits .f32 0x00000000#32) a xs
          (fun k n => w (ix2 k n)) (fun n => b (ix2 (0 : Fin 1) n)) (ix2 e j) := by
  unfold Gen.k0_pay1
  simp only [shapeCast_self]
  exact unit_edgeMsg_apply (truncf .bf16 a bitsLt_bf16_f32) w xs b broadcasts_S1x96_S8000x96
    (Scalar.ofBits .f32 0x00000000#32) e j

/-- From a block of 8000 edges to all 800000: when row p of the block's attributes is row i₀ of the whole attribute
    matrix, the block's gathered feature at (p, q) is the whole one at i, the weights and the bias are the whole ones,
    and q is the column i₁, the block's message at (p, q) is the message of all edges at i. -/
private theorem payload_block (A : S800000x16.Idx → EReal) (XS : S800000x96.Idx → EReal) (Wt : S16x96.Idx → EReal)
    (B : S1x96.Idx → EReal) (a : Vec Ideal S8000x16 .f32) (w : Vec Ideal S16x96 .bf16) (xs : Vec Ideal S8000x96 .f32)
    (b : Vec Ideal S1x96 .f32) (p : Fin 8000) (q : Fin 96) (i : S800000x96.Idx)
    (hrow : ∀ k : Fin 16, a (ix2 p k) = A (ix2 (n0 := 800000) (i 0) k)) (hx : xs (ix2 p q) = XS i)
    (hw : ∀ (k : Fin 16) (n : Fin 96), w (ix2 k n) = Wt (ix2 k n))
    (hb : ∀ n : Fin 96, b (ix2 (0 : Fin 1) n) = B (ix2 (0 : Fin 1) n)) (hcol : q.val = (i 1).val) :
    Gen.k0_pay1 a w xs b (ix2 p q)
      = edgeMsg (E := 800000) (K := 16) (D := 96) (Ideal.ofBits .f32 0x00000000#32) A XS
          (fun k n => Wt (ix2 k n)) (fun n => B (ix2 (0 : Fin 1) n)) i := by
  have hw' : (fun (k : Fin 16) (n : Fin 96) => w (ix2 k n)) = fun k n => Wt (ix2 k n) :=
    funext fun k => funext fun n => hw k n
  have hb' : (fun n : Fin 96 => b (ix2 (0 : Fin 1) n)) = fun n => B (ix2 (0 : Fin 1) n) := funext hb
  rw [payload_apply, hw', hb']
  exact edgeMsg_block _ A a XS xs _ _ (ix2 p q) i hrow hx hcol

/-- The block indices at grid point t: the attributes, the gathered features and the messages are all cut into blocks
    of 8000 rows and point t takes block t of each, over all the columns; the weights and the bias are one block. -/
private theorem block_indices : ∀ t : Fin cfg0.N,
      win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The messages of all 800000 edges, of the arrays the region is entered with. -/
private abbrev messages (c : Dev nD) : S800000x96.Idx → EReal :=
  edgeMsg (E := 800000) (K := 16) (D := 96) (Ideal.ofBits .f32 0x00000000#32) (V c main_arg2) (V c main_v10)
    (fun k n => V c main_v11 (ix2 k n)) (fun n => V c main_v12 (ix2 (0 : Fin 1) n))

/-- What grid point t writes back is block t of the messages of all edges: element (p, q) of a block sits in its array
    at row (block index) · 8000 + p and column q, the attribute and feature blocks of point t are rows
    8000 t … 8000 t + 7999 as the message block is, and the weight and bias blocks are the whole arrays. -/
private theorem flushed_eq (c : Dev nD) (t : Fin cfg0.N) :
    (Gen.dat0 (F := Ideal) V c).flushed 4 t = ((cfg0.win 4).blk t).view.read (Elt Ideal) (messages V c) := by
  show (cfg0.win 4).cut (grid0.coords t) ((Gen.dat0 (F := Ideal) V c).after 4 t) = _
  rw [after0_4]
  unfold out0_4
  rw [View.canon_unit_zero origin]
  simp only [View.ld_unit_zero (S := S8000x16) origin, View.ld_unit_zero (S := S8000x96) origin,
    View.ld_unit_zero (S := S16x96) origin, View.ld_unit_zero (S := S1x96) origin]
  obtain ⟨e00, e01, e10, e11, e20, e21, e30, e31, e40, e41⟩ := block_indices t
  funext y
  show Gen.k0_pay1 (iblk0 V c 0 t) (iblk0 V c 2 t) (iblk0 V c 1 t) (iblk0 V c 3 t) y
    = messages V c (((cfg0.win 4).blk t).view.emb y)
  obtain ⟨p, q, rfl⟩ : ∃ (p : Fin 8000) (q : Fin 96), y = ix2 p q := ⟨y 0, y 1, eq_ix2 y⟩
  have hp : p.val < 8000 := p.isLt
  have hq : q.val < 96 := q.isLt
  refine payload_block _ _ _ _ _ _ _ _ p q _ (fun k => ?_) ?_ (fun k n => ?_) (fun n => ?_) ?_
  · show V c main_arg2 (((cfg0.win 0).blk t).view.emb (ix2 p k))
      = V c main_arg2 (ix2 ((((cfg0.win 4).blk t).view.emb (ix2 p q)) 0) k)
    refine congrArg _ (funext fun a => Fin.ext ?_)
    match a with
    | ⟨0, _⟩ =>
      show win0_0.index t (0 : Fin 2) * 8000 + 1 * p.val = win0_4.index t (0 : Fin 2) * 8000 + 1 * p.val
      omega
    | ⟨1, _⟩ =>
      show win0_0.index t (1 : Fin 2) * 16 + 1 * k.val = k.val
      omega
  · show V c main_v10 (((cfg0.win 1).blk t).view.emb (ix2 p q)) = V c main_v10 (((cfg0.win 4).blk t).view.emb (ix2 p q))
    refine congrArg _ (funext fun a => Fin.ext ?_)
    match a with
    | ⟨0, _⟩ =>
      show win0_1.index t (0 : Fin 2) * 8000 + 1 * p.val = win0_4.index t (0 : Fin 2) * 8000 + 1 * p.val
      omega
    | ⟨1, _⟩ =>
      show win0_1.index t (1 : Fin 2) * 96 + 1 * q.val = win0_4.index t (1 : Fin 2) * 96 + 1 * q.val
      omega
  · show V c main_v11 (((cfg0.win 2).blk t).view.emb (ix2 k n)) = V c main_v11 (ix2 k n)
    refine congrArg _ (funext fun a => Fin.ext ?_)
    match a with
    | ⟨0, _⟩ =>
      show win0_2.index t (0 : Fin 2) * 16 + 1 * k.val = k.val
      omega
    | ⟨1, _⟩ =>
      show win0_2.index t (1 : Fin 2) * 96 + 1 * n.val = n.val
      omega
  · show V c main_v12 (((cfg0.win 3).blk t).view.emb (ix2 (0 : Fin 1) n)) = V c main_v12 (ix2 (0 : Fin 1) n)
    refine congrArg _ (funext fun a => Fin.ext ?_)
    match a with
    | ⟨0, _⟩ =>
      show win0_3.index t (0 : Fin 2) * 1 + 1 * 0 = 0
      omega
    | ⟨1, _⟩ =>
      show win0_3.index t (1 : Fin 2) * 96 + 1 * n.val = n.val
      omega
  · show q.val = win0_4.index t (1 : Fin 2) * 96 + 1 * q.val
    omega

/-- An index of the message array is in point t's block when each coordinate is in the block's range on its axis. -/
private theorem mem_block (t : Fin cfg0.N) (i : S800000x96.Idx) :
    i ∈ ((cfg0.win 4).blk t).view.set ↔ ∀ a : Fin 2, win0_4.index t a * S8000x96.size a ≤ (i a).val
      ∧ (i a).val < win0_4.index t a * S8000x96.size a + S8000x96.size a := by
  show i ∈ ((View.whole main_v13).slice (win0_4.rect t)).set ↔ _
  rw [View.set_slice_whole, Rect.mem_set_unit]
  exact Iff.rfl

/-- Every edge is in some point's block: edge r in the block of point r / 8000, and there are 800000 / 8000 = 100 points. -/
private theorem blocks_cover (i : S800000x96.Idx) :
    ∃ t : Fin cfg0.N, (cfg0.win 4).flush t = true ∧ i ∈ ((cfg0.win 4).blk t).view.set := by
  have hi0 : (i 0).val < 800000 := (i 0).isLt
  have hi1 : (i 1).val < 96 := (i 1).isLt
  obtain ⟨t, ht⟩ : ∃ t : Fin cfg0.N, t.val = (i 0).val / 8000 :=
    ⟨⟨(i 0).val / 8000, by rw [show cfg0.N = 100 from N_0]; omega⟩, rfl⟩
  obtain ⟨-, -, -, -, -, -, -, -, e40, e41⟩ := block_indices t
  refine ⟨t, flush0_4 t, ?_⟩
  rw [mem_block]
  intro a
  match a with
  | ⟨0, _⟩ =>
    show win0_4.index t (0 : Fin 2) * 8000 ≤ (i 0).val ∧ (i 0).val < win0_4.index t (0 : Fin 2) * 8000 + 8000
    omega
  | ⟨1, _⟩ =>
    show win0_4.index t (1 : Fin 2) * 96 ≤ (i 1).val ∧ (i 1).val < win0_4.index t (1 : Fin 2) * 96 + 96
    omega

/-- The message array after the region: the message of all 800000 edges, of the arrays the region was entered with. -/
theorem arr_out (c : Dev nD) :
    (Gen.dat0 (F := Ideal) V c).arrAt 4 cfg0.N
      = edgeMsg (E := 800000) (K := 16) (D := 96) (Ideal.ofBits .f32 0x00000000#32) (V c main_arg2) (V c main_v10)
          (fun k n => V c main_v11 (ix2 k n)) (fun n => V c main_v12 (ix2 (0 : Fin 1) n)) := by
  exact (Gen.dat0 (F := Ideal) V c).arrAt_eq_of_cover 4 (messages V c) (fun t _ => flushed_eq V c t) blocks_cover

end Cert.KernelIdeal.EdgeValue0

end
-- ==== Proof.MlpValue1.lean ====
/- The first node-update region, read as one function of the arrays it is entered with. -/
import proofs.«156036_j43258910605922_1_alg».proof.Proof.Gen.KernelIdeal.Frame
import proofs.«156036_j43258910605922_1_alg».proof.Proof.LibGineConv

set_option maxRecDepth 16384

noncomputable section

namespace Cert.KernelIdeal.MlpValue1

open Cert.KernelIdeal Cert.KernelIdeal.Gen
open Idealize.ShloMosaic Idealize.ShloMosaic.TcCoe Idealize.ShloMosaic.ValueIdx Idealize.SL.Sem
open Cert.LibGineConv

variable (V : (c : Dev nD) → (b : Ref sig .tc) → Buf (Elt Ideal) ((c : Thread nD τ).loc b))
/-! ## The network at one element of a block -/

/-- The first product's dimension numbers are the plain ones: rows by columns, one contracted coordinate. -/
private theorem dot1_plain : dot_S5000x96_S96x128_S5000x128_1_0_0_1_n_n = DotDims.plain 5000 96 128 := rfl
/-- So are the second product's. -/
private theorem dot2_plain : dot_S5000x128_S128x128_S5000x128_1_0_0_1_n_n = DotDims.plain 5000 128 128 := rfl

/-- Over the extended reals a change of format is the identity. -/
private theorem truncf_id {s : Shape} {φ ψ : FTy} (a : FVec Ideal s φ) (h : ψ.bits < φ.bits) :
    (truncf ψ a h : FVec Ideal s ψ) = a := rfl

/-- What a point computes from its blocks, at row e and column j of the block: the two-layer network on row e of the
    block of nodes, with the two weight matrices and the two one-row biases as it holds them. -/
private theorem pay_apply (v0 : Vec Ideal S5000x96 .f32) (v3 : Vec Ideal S96x128 .bf16) (v6 : Vec Ideal S1x128 .f32)
    (v13 : Vec Ideal S128x128 .bf16) (v16 : Vec Ideal S1x128 .f32) (e : Fin 5000) (j : Fin 128) :
    Gen.k1_pay1 (F := Ideal) v0 v3 v6 v13 v16 (ix2 e j)
      = mlp2Rows (M := 5000) (K := 96) (H := 128) (N := 128) (Ideal.ofBits .f32 0x00000000#32) v0
          (fun k n => v3 (ix2 k n)) (fun n => v6 (ix2 (0 : Fin 1) n))
          (fun k n => v13 (ix2 k n)) (fun n => v16 (ix2 (0 : Fin 1) n)) (ix2 e j) := by
  unfold Gen.k1_pay1
  simp only [shapeCast_self, truncf_id]
  rw [dot1_plain, dot2_plain]
  exact unit_mlp2_apply (M := 5000) (K := 96) (H := 128) (N := 128) (φ₁ := .f32) (φ₂ := .bf16) (φ₃ := .bf16)
    v0 v3 v6 v13 v16 _ _ _ e j

/-! ## Where the blocks sit in their arrays -/

private theorem hz : (![0, 0] : Fin 2 → Nat) = fun _ => 0 := funext fun a => by fin_cases a <;> rfl

/-- The block indices at point t, over the ten points: the node blocks (input and output) are block (t, 0) of their
    arrays; the two weight matrices and the two biases are block (0, 0), the whole array. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row e of point t's block of nodes is row 5000 t + e of the node array. -/
private theorem blk_x (c : Dev nD) (t : Fin cfg1.N) (e : Fin 5000) (k : Fin 96) (r : Fin 50000)
    (hr : r.val = t.val * 5000 + e.val) :
    (iblk1 V c 0 t : Vec Ideal S5000x96 .f32) (ix2 e k) = V c main_v19 (ix2 r k) := by
  obtain ⟨h00, h01, -⟩ := idx_facts t
  unfold iblk1
  rw [View.read_apply]
  show V c main_v19 _ = V c main_v19 _
  congr 1
  funext a
  apply Fin.ext
  match a with
  | ⟨0, _⟩ => show win1_0.index t (0 : Fin 2) * 5000 + 1 * e.val = r.val; omega
  | ⟨1, _⟩ => show win1_0.index t (1 : Fin 2) * 96 + 1 * k.val = k.val; omega

/-- The first weight matrix's block is the whole matrix. -/
private theorem blk_w1 (c : Dev nD) (t : Fin cfg1.N) (k : Fin 96) (n : Fin 128) :
    (iblk1 V c 1 t : Vec Ideal S96x128 .bf16) (ix2 k n) = V c main_v20 (ix2 k n) := by
  obtain ⟨-, -, h0, h1, -⟩ := idx_facts t
  unfold iblk1
  rw [View.read_apply]
  show V c main_v20 _ = V c main_v20 _
  congr 1
  funext a
  apply Fin.ext
  match a with
  | ⟨0, _⟩ => show win1_1.index t (0 : Fin 2) * 96 + 1 * k.val = k.val; omega
  | ⟨1, _⟩ => show win1_1.index t (1 : Fin 2) * 128 + 1 * n.val = n.val; omega

/-- The first bias's block is the whole row. -/
private theorem blk_b1 (c : Dev nD) (t : Fin cfg1.N) (n : Fin 128) :
    (iblk1 V c 2 t : Vec Ideal S1x128 .f32) (ix2 (0 : Fin 1) n) = V c main_v22 (ix2 (0 : Fin 1) n) := by
  obtain ⟨-, -, -, -, h0, h1, -⟩ := idx_facts t
  unfold iblk1
  rw [View.read_apply]
  show V c main_v22 _ = V c main_v22 _
  congr 1
  funext a
  apply Fin.ext
  match a with
  | ⟨0, _⟩ => show win1_2.index t (0 : Fin 2) * 1 + 1 * 0 = 0; omega
  | ⟨1, _⟩ => show win1_2.index t (1 : Fin 2) * 128 + 1 * n.val = n.val; omega

/-- The second weight matrix's block is the whole matrix. -/
private theorem blk_w2 (c : Dev nD) (t : Fin cfg1.N) (k : Fin 128) (n : Fin 128) :
    (iblk1 V c 3 t : Vec Ideal S128x128 .bf16) (ix2 k n) = V c main_v21 (ix2 k n) := by
  obtain ⟨-, -, -, -, -, -, h0, h1, -⟩ := idx_facts t
  unfold iblk1
  rw [View.read_apply]
  show V c main_v21 _ = V c main_v21 _
  congr 1
  funext a
  apply Fin.ext
  match a with
  | ⟨0, _⟩ => show win1_3.index t (0 : Fin 2) * 128 + 1 * k.val = k.val; omega
  | ⟨1, _⟩ => show win1_3.index t (1 : Fin 2) * 128 + 1 * n.val = n.val; omega

/-- The second bias's block is the whole row. -/
private theorem blk_b2 (c : Dev nD) (t : Fin cfg1.N) (n : Fin 128) :
    (iblk1 V c 4 t : Vec Ideal S1x128 .f32) (ix2 (0 : Fin 1) n) = V c main_v23 (ix2 (0 : Fin 1) n) := by
  obtain ⟨-, -, -, -, -, -, -, -, h0, h1, -⟩ := idx_facts t
  unfold iblk1
  rw [View.read_apply]
  show V c main_v23 _ = V c main_v23 _
  congr 1
  funext a
  apply Fin.ext
  match a with
  | ⟨0, _⟩ => show win1_4.index t (0 : Fin 2) * 1 + 1 * 0 = 0; omega
  | ⟨1, _⟩ => show win1_4.index t (1 : Fin 2) * 128 + 1 * n.val = n.val; omega

/-! ## What each point writes back, and the whole array -/

/-- What point t writes back is block (t, 0) of the network applied to every row of the node array: element (e, j) of
    the block depends on row e of the block of nodes, which is row 5000 t + e of the array, and on the whole weights and
    biases; the column is the same. -/
private theorem flushed_eq (c : Dev nD) (t : Fin cfg1.N) :
    (Gen.dat1 (F := Ideal) V c).flushed 5 t = ((cfg1.win 5).blk t).view.read (Elt Ideal)
      (mlp2Rows (M := 50000) (K := 96) (H := 128) (N := 128) (Ideal.ofBits .f32 0x00000000#32) (V c main_v19)
          (fun k n => V c main_v20 (ix2 k n)) (fun n => V c main_v22 (ix2 (0 : Fin 1) n))
          (fun k n => V c main_v21 (ix2 k n)) (fun n => V c main_v23 (ix2 (0 : Fin 1) n))) := by
  show (cfg1.win 5).cut (grid1.coords t) ((Gen.dat1 (F := Ideal) V c).after 5 t) = _
  rw [after1_5]
  unfold out1_5
  rw [View.canon_unit_zero hz]
  simp only [View.ld_unit_zero (S := S5000x96) hz, View.ld_unit_zero (S := S96x128) hz, View.ld_unit_zero (S := S1x128) hz,
    View.ld_unit_zero (S := S128x128) hz]
  funext y
  obtain ⟨e, j, rfl⟩ : ∃ (e : Fin 5000) (j : Fin 128), y = ix2 e j := ⟨y 0, y 1, eq_ix2 y⟩
  refine (pay_apply (iblk1 V c 0 t) (iblk1 V c 1 t) (iblk1 V c 2 t) (iblk1 V c 3 t) (iblk1 V c 4 t) e j).trans ?_
  have hw1 : (fun (k : Fin 96) (n : Fin 128) => (iblk1 V c 1 t : Vec Ideal S96x128 .bf16) (ix2 k n))
      = fun k n => V c main_v20 (ix2 k n) := funext fun k => funext fun n => blk_w1 V c t k n
  have hb1 : (fun (n : Fin 128) => (iblk1 V c 2 t : Vec Ideal S1x128 .f32) (ix2 (0 : Fin 1) n))
      = fun n => V c main_v22 (ix2 (0 : Fin 1) n) := funext fun n => blk_b1 V c t n
  have hw2 : (fun (k : Fin 128) (n : Fin 128) => (iblk1 V c 3 t : Vec Ideal S128x128 .bf16) (ix2 k n))
      = fun k n => V c main_v21 (ix2 k n) := funext fun k => funext fun n => blk_w2 V c t k n
  have hb2 : (fun (n : Fin 128) => (iblk1 V c 4 t : Vec Ideal S1x128 .f32) (ix2 (0 : Fin 1) n))
      = fun n => V c main_v23 (ix2 (0 : Fin 1) n) := funext fun n => blk_b2 V c t n
  rw [hw1, hb1, hw2, hb2, View.read_apply]
  obtain ⟨-, -, -, -, -, -, -, -, -, -, h50, h51⟩ := idx_facts t
  refine mlp2Rows_block (M := 50000) (M' := 5000) _ (V c main_v19) (iblk1 V c 0 t) _ _ _ _ (ix2 e j) _ (fun k => ?_) ?_
  · refine blk_x V c t e k _ ?_
    show win1_5.index t (0 : Fin 2) * 5000 + 1 * e.val = t.val * 5000 + e.val
    omega
  · show j.val = win1_5.index t (1 : Fin 2) * 128 + 1 * j.val
    omega

/-- An element of the output array is in point t's block iff each of its coordinates is in the block's range. -/
private theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v24).slice (win1_5.rect t)).set ↔ _
  rw [View.set_slice_whole, Rect.mem_set_unit]
  exact Iff.rfl

/-- Every element of the output array is in some point's block: row r is in the block of point r / 5000. -/
private theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_5 _, ?_⟩
  rw [mem_blk]
  obtain ⟨-, -, -, -, -, -, -, -, -, -, h50, h51⟩ := idx_facts ⟨(i 0).val / 5000, ht⟩
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [h50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [h51]
    omega

/-- The node array after the region: the two-layer network on each of the 50000 rows of the array the region was entered with. -/
theorem arr_out (c : Dev nD) :
    (Gen.dat1 (F := Ideal) V c).arrAt 5 cfg1.N
      = mlp2Rows (M := 50000) (K := 96) (H := 128) (N := 128) (Ideal.ofBits .f32 0x00000000#32) (V c main_v19)
          (fun k n => V c main_v20 (ix2 k n)) (fun n => V c main_v22 (ix2 (0 : Fin 1) n))
          (fun k n => V c main_v21 (ix2 k n)) (fun n => V c main_v23 (ix2 (0 : Fin 1) n)) := by
  exact (Gen.dat1 (F := Ideal) V c).arrAt_eq_of_cover 5 _ (fun t _ => flushed_eq V c t) cover

end Cert.KernelIdeal.MlpValue1

end
-- ==== Proof.BoundariesA.lean ====
/- The idealized kernel program's buffers at the boundaries between its host stretches and its regions, up to the exit of
   the first node update: each buffer a later step reads is the reference's stage of the same name of the launch
   arguments. The host operations are the same on both sides, so a stretch is read by unfolding the reference's stage
   one operation deep; a region's output array is its value lemma, and the reference's dense stage is the same general
   function of the stage before it. -/
import proofs.«156036_j43258910605922_1_alg».proof.Proof.Gen.KernelIdeal.Frame
import proofs.«156036_j43258910605922_1_alg».proof.Proof.Gen.ReferenceIdeal.Read
import proofs.«156036_j43258910605922_1_alg».proof.Proof.EdgeValue0
import proofs.«156036_j43258910605922_1_alg».proof.Proof.MlpValue1
import proofs.«156036_j43258910605922_1_alg».proof.Proof.RefStages

set_option maxRecDepth 16384

noncomputable section

namespace Cert.KernelIdeal.BoundariesA

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read Cert.LibGineConv

variable (m : (ℓ : Loc nD τ sig) → Buf (Elt Ideal) ℓ) (ρ : Dev nD → PrngReg) (c : Dev nD)

set_option hygiene false in
local macro "a0" : term => `(m ((c : Thread nD τ).loc main_arg0))
set_option hygiene false in
local macro "a1" : term => `(m ((c : Thread nD τ).loc main_arg1))
set_option hygiene false in
local macro "a2" : term => `(m ((c : Thread nD τ).loc main_arg2))
set_option hygiene false in
local macro "a3" : term => `(m ((c : Thread nD τ).loc main_arg3))
set_option hygiene false in
local macro "a4" : term => `(m ((c : Thread nD τ).loc main_arg4))
set_option hygiene false in
local macro "a5" : term => `(m ((c : Thread nD τ).loc main_arg5))
set_option hygiene false in
local macro "a6" : term => `(m ((c : Thread nD τ).loc main_arg6))
set_option hygiene false in
local macro "a7" : term => `(m ((c : Thread nD τ).loc main_arg7))
set_option hygiene false in
local macro "a8" : term => `(m ((c : Thread nD τ).loc main_arg8))
set_option hygiene false in
local macro "a9" : term => `(m ((c : Thread nD τ).loc main_arg9))
set_option hygiene false in
local macro "a10" : term => `(m ((c : Thread nD τ).loc main_arg10))
set_option hygiene false in
local macro "a11" : term => `(m ((c : Thread nD τ).loc main_arg11))
set_option hygiene false in
local macro "a12" : term => `(m ((c : Thread nD τ).loc main_arg12))
set_option hygiene false in
local macro "a13" : term => `(m ((c : Thread nD τ).loc main_arg13))
set_option hygiene false in
local macro "a14" : term => `(m ((c : Thread nD τ).loc main_arg14))
set_option hygiene false in
local macro "a15" : term => `(m ((c : Thread nD τ).loc main_arg15))
set_option hygiene false in
local macro "a16" : term => `(m ((c : Thread nD τ).loc main_arg16))
set_option hygiene false in
local macro "a17" : term => `(m ((c : Thread nD τ).loc main_arg17))

/-- Reads a buffer at a boundary back to the boundary before it, again and again, while nothing in between writes it: a
    region that does not have it among its arrays leaves it as entered, and a stretch of host operations that does not
    write it leaves it as it was; where a host operation does write it the operation's own term is left. -/
macro "to_launch" : tactic => `(tactic| (
  repeat (first
    | (refine (W9_of_ne _ _ _ _ ?_).trans ?_; decide)
    | (refine (W7_of_ne _ _ _ _ ?_).trans ?_; decide)
    | (refine (W4_of_ne _ _ _ _ ?_).trans ?_; decide)
    | (refine (W2_of_ne _ _ _ _ ?_).trans ?_; decide)
    | (show StableHlo.after _ _ _ = _; after_results))
  try rfl))

/-- A vector cast to a one-row matrix, read in its row. -/
theorem rowCast_apply {α : Type} {n : ℕ} (x : (⟨1, ![n]⟩ : Shape).Idx → α)
    (h : (⟨1, ![n]⟩ : Shape).ShapeCasts ⟨2, ![1, n]⟩) (k : Fin n) :
    shapeCast (⟨2, ![1, n]⟩ : Shape) x h (ix2 (0 : Fin 1) k) = x (ix1 k) := by
  refine (shapeCast_addUnit_apply ![n] x h (ix2 (0 : Fin 1) k)).trans (congrArg x (funext fun a => ?_))
  match a with
  | ⟨0, _⟩ => rfl

/-! ## After the first host stretch: the index vectors, the gathered features, the first message's weights -/

theorem W1_v1 : W1 m ρ c (Proc.devRef .tc main_v1) = val_main_v1 (F := Ideal) a1 := by to_launch
theorem W1_v3 : W1 m ρ c (Proc.devRef .tc main_v3) = val_main_v3 (F := Ideal) a1 := by to_launch
theorem W1_v10 : W1 m ρ c (Proc.devRef .tc main_v10) = val_main_v10 (F := Ideal) a0 a1 := by to_launch
theorem W1_v11 : W1 m ρ c (Proc.devRef .tc main_v11) = a4 := by to_launch
theorem W1_v12 : W1 m ρ c (Proc.devRef .tc main_v12) = shapeCast S1x96 a5 shapeCasts_S96_S1x96 := by to_launch
theorem W1_arg2 : W1 m ρ c (Proc.devRef .tc main_arg2) = a2 := by to_launch

/-! ## After the first message region -/

/-- The edge attributes are one of the region's input arrays: the region leaves them as entered. -/
theorem W2_arg2 : W2 m ρ c (Proc.devRef .tc main_arg2) = a2 :=
  (W2_arr m ρ c 0).trans ((((dat0 (V1 m ρ) c).arrAt_in 0 rfl _).trans (A_eq0 (V1 m ρ) c 0)).trans (W1_arg2 m ρ c))

/-- The messages of the first layer are the reference's. -/
theorem W2_v13 : W2 m ρ c (Proc.devRef .tc main_v13) = val_main_v16 (F := Ideal) a0 a1 a2 a4 a5 := by
  refine (W2_arr m ρ c 4).trans ((Cert.KernelIdeal.EdgeValue0.arr_out (V1 m ρ) c).trans ?_)
  rw [Cert.ReferenceIdeal.Stages.v16_eq]
  show edgeMsg _ (W1 m ρ c (Proc.devRef .tc main_arg2)) (W1 m ρ c (Proc.devRef .tc main_v10))
      (fun k n => W1 m ρ c (Proc.devRef .tc main_v11) (ix2 k n))
      (fun n => W1 m ρ c (Proc.devRef .tc main_v12) (ix2 (0 : Fin 1) n)) = _
  rw [W1_arg2, W1_v10, W1_v11, W1_v12]
  simp only [rowCast_apply]

theorem W2_v1 : W2 m ρ c (Proc.devRef .tc main_v1) = val_main_v1 (F := Ideal) a1 := by to_launch
theorem W2_v3 : W2 m ρ c (Proc.devRef .tc main_v3) = val_main_v3 (F := Ideal) a1 := by to_launch
theorem W2_arg0 : W2 m ρ c (Proc.devRef .tc main_arg0) = a0 := by to_launch
theorem W2_arg6 : W2 m ρ c (Proc.devRef .tc main_arg6) = a6 := by to_launch
theorem W2_arg7 : W2 m ρ c (Proc.devRef .tc main_arg7) = a7 := by to_launch
theorem W2_arg8 : W2 m ρ c (Proc.devRef .tc main_arg8) = a8 := by to_launch
theorem W2_arg9 : W2 m ρ c (Proc.devRef .tc main_arg9) = a9 := by to_launch

/-! ## After the second host stretch: the aggregated features and the first network's weights -/

theorem W3_v19 : W3 m ρ c (Proc.devRef .tc main_v19) = val_main_v22 (F := Ideal) a0 a1 a2 a4 a5 := by
  show StableHlo.after hostOps1 (W2 m ρ c) (Proc.devRef .tc main_v19) = _
  after_results
  rw [W2_arg0, W2_v3, W2_v13]
  rfl

theorem W3_v20 : W3 m ρ c (Proc.devRef .tc main_v20) = a6 := by
  show StableHlo.after hostOps1 (W2 m ρ c) (Proc.devRef .tc main_v20) = _
  after_results
  rw [W2_arg6]
  rfl

theorem W3_v21 : W3 m ρ c (Proc.devRef .tc main_v21) = a8 := by
  show StableHlo.after hostOps1 (W2 m ρ c) (Proc.devRef .tc main_v21) = _
  after_results
  rw [W2_arg8]
  rfl

theorem W3_v22 : W3 m ρ c (Proc.devRef .tc main_v22) = shapeCast S1x128 a7 shapeCasts_S128_S1x128 := by
  show StableHlo.after hostOps1 (W2 m ρ c) (Proc.devRef .tc main_v22) = _
  after_results
  rw [W2_arg7]
  rfl

theorem W3_v23 : W3 m ρ c (Proc.devRef .tc main_v23) = shapeCast S1x128 a9 shapeCasts_S128_S1x128 := by
  show StableHlo.after hostOps1 (W2 m ρ c) (Proc.devRef .tc main_v23) = _
  after_results
  rw [W2_arg9]
  rfl

/-! ## After the first node update -/

/-- The first layer's node features before the activation are the reference's. -/
theorem W4_v24 : W4 m ρ c (Proc.devRef .tc main_v24) = val_main_v31 (F := Ideal) a0 a1 a2 a4 a5 a6 a7 a8 a9 := by
  refine (W4_arr m ρ c 5).trans ((Cert.KernelIdeal.MlpValue1.arr_out (V3 m ρ) c).trans ?_)
  rw [Cert.ReferenceIdeal.Stages.v31_eq]
  show mlp2Rows _ (W3 m ρ c (Proc.devRef .tc main_v19))
      (fun k n => W3 m ρ c (Proc.devRef .tc main_v20) (ix2 k n))
      (fun n => W3 m ρ c (Proc.devRef .tc main_v22) (ix2 (0 : Fin 1) n))
      (fun k n => W3 m ρ c (Proc.devRef .tc main_v21) (ix2 k n))
      (fun n => W3 m ρ c (Proc.devRef .tc main_v23) (ix2 (0 : Fin 1) n)) = _
  rw [W3_v19, W3_v20, W3_v22, W3_v21, W3_v23]
  simp only [rowCast_apply]

theorem W4_v1 : W4 m ρ c (Proc.devRef .tc main_v1) = val_main_v1 (F := Ideal) a1 := by to_launch
theorem W4_v3 : W4 m ρ c (Proc.devRef .tc main_v3) = val_main_v3 (F := Ideal) a1 := by to_launch
theorem W4_arg2 : W4 m ρ c (Proc.devRef .tc main_arg2) = a2 := by
  refine (W4_of_ne m ρ c main_arg2 (by decide)).trans ?_
  show StableHlo.after hostOps1 (W2 m ρ c) (Proc.devRef .tc main_arg2) = _
  after_results
  exact W2_arg2 m ρ c

end Cert.KernelIdeal.BoundariesA

end
-- ==== Proof.BoundariesB.lean ====
/- The idealized kernel program's buffers at the boundaries from the first activation to the return: each buffer a later
   step reads is the reference's stage of the same name of the launch arguments, and the result buffer is the
   reference's result. -/
import proofs.«156036_j43258910605922_1_alg».proof.Proof.Gen.KernelIdeal.Frame
import proofs.«156036_j43258910605922_1_alg».proof.Proof.Gen.ReferenceIdeal.Read
import proofs.«156036_j43258910605922_1_alg».proof.Proof.EdgeValue2
import proofs.«156036_j43258910605922_1_alg».proof.Proof.MlpValue3
import proofs.«156036_j43258910605922_1_alg».proof.Proof.RefStages
import proofs.«156036_j43258910605922_1_alg».proof.Proof.BoundariesA

set_option maxRecDepth 16384

noncomputable section

namespace Cert.KernelIdeal.BoundariesB

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read Cert.LibGineConv

variable (m : (ℓ : Loc nD τ sig) → Buf (Elt Ideal) ℓ) (ρ : Dev nD → PrngReg) (c : Dev nD)

set_option hygiene false in
local macro "a0" : term => `(m ((c : Thread nD τ).loc main_arg0))
set_option hygiene false in
local macro "a1" : term => `(m ((c : Thread nD τ).loc main_arg1))
set_option hygiene false in
local macro "a2" : term => `(m ((c : Thread nD τ).loc main_arg2))
set_option hygiene false in
local macro "a3" : term => `(m ((c : Thread nD τ).loc main_arg3))
set_option hygiene false in
local macro "a4" : term => `(m ((c : Thread nD τ).loc main_arg4))
set_option hygiene false in
local macro "a5" : term => `(m ((c : Thread nD τ).loc main_arg5))
set_option hygiene false in
local macro "a6" : term => `(m ((c : Thread nD τ).loc main_arg6))
set_option hygiene false in
local macro "a7" : term => `(m ((c : Thread nD τ).loc main_arg7))
set_option hygiene false in
local macro "a8" : term => `(m ((c : Thread nD τ).loc main_arg8))
set_option hygiene false in
local macro "a9" : term => `(m ((c : Thread nD τ).loc main_arg9))
set_option hygiene false in
local macro "a10" : term => `(m ((c : Thread nD τ).loc main_arg10))
set_option hygiene false in
local macro "a11" : term => `(m ((c : Thread nD τ).loc main_arg11))
set_option hygiene false in
local macro "a12" : term => `(m ((c : Thread nD τ).loc main_arg12))
set_option hygiene false in
local macro "a13" : term => `(m ((c : Thread nD τ).loc main_arg13))
set_option hygiene false in
local macro "a14" : term => `(m ((c : Thread nD τ).loc main_arg14))
set_option hygiene false in
local macro "a15" : term => `(m ((c : Thread nD τ).loc main_arg15))
set_option hygiene false in
local macro "a16" : term => `(m ((c : Thread nD τ).loc main_arg16))
set_option hygiene false in
local macro "a17" : term => `(m ((c : Thread nD τ).loc main_arg17))

open Cert.KernelIdeal.BoundariesA

/-- Reads a buffer at a boundary back to the boundary before it, again and again, while nothing in between writes it: a
    region that does not have it among its arrays leaves it as entered, and a stretch of host operations that does not
    write it leaves it as it was; where a host operation does write it the operation's own term is left. -/
macro "to_launch" : tactic => `(tactic| (
  repeat (first
    | (refine (W9_of_ne _ _ _ _ ?_).trans ?_; decide)
    | (refine (W7_of_ne _ _ _ _ ?_).trans ?_; decide)
    | (refine (W4_of_ne _ _ _ _ ?_).trans ?_; decide)
    | (refine (W2_of_ne _ _ _ _ ?_).trans ?_; decide)
    | (show StableHlo.after _ _ _ = _; after_results))
  try rfl))

/-! ## The first activation, the second gather, the second message's weights -/

theorem W5_v25 : W5 m ρ c (Proc.devRef .tc main_v25) = val_main_v32 (F := Ideal) a0 a1 a2 a4 a5 a6 a7 a8 a9 := by
  show StableHlo.after hostOps2 (W4 m ρ c) (Proc.devRef .tc main_v25) = _
  after_results
  rw [W4_v24]
  rfl

theorem W5_v1 : W5 m ρ c (Proc.devRef .tc main_v1) = val_main_v1 (F := Ideal) a1 := by
  show StableHlo.after hostOps2 (W4 m ρ c) (Proc.devRef .tc main_v1) = _
  after_results
  exact W4_v1 m ρ c

theorem W4_arg10 : W4 m ρ c (Proc.devRef .tc main_arg10) = a10 := by to_launch
theorem W4_arg11 : W4 m ρ c (Proc.devRef .tc main_arg11) = a11 := by to_launch

-- the stretch read below is two stretches long (the activation, then the gather): many small steps
set_option maxHeartbeats 1600000 in
theorem W6_v32 : W6 m ρ c (Proc.devRef .tc main_v32) = val_main_v39 (F := Ideal) a0 a1 a2 a4 a5 a6 a7 a8 a9 := by
  show StableHlo.after hostOps2_1 (W5 m ρ c) (Proc.devRef .tc main_v32) = _
  after_results
  rw [W4_v24, W4_v1]
  rfl

theorem W6_v33 : W6 m ρ c (Proc.devRef .tc main_v33) = a10 := by
  show StableHlo.after hostOps2_1 (W5 m ρ c) (Proc.devRef .tc main_v33) = _
  after_results
  rw [W4_arg10]
  rfl

theorem W6_v34 : W6 m ρ c (Proc.devRef .tc main_v34) = shapeCast S1x128 a11 shapeCasts_S128_S1x128 := by
  show StableHlo.after hostOps2_1 (W5 m ρ c) (Proc.devRef .tc main_v34) = _
  after_results
  rw [W4_arg11]
  rfl

theorem W6_arg2 : W6 m ρ c (Proc.devRef .tc main_arg2) = a2 := by
  show StableHlo.after hostOps2_1 (W5 m ρ c) (Proc.devRef .tc main_arg2) = _
  after_results
  exact W4_arg2 m ρ c

theorem W6_v25 : W6 m ρ c (Proc.devRef .tc main_v25) = val_main_v32 (F := Ideal) a0 a1 a2 a4 a5 a6 a7 a8 a9 := by
  show StableHlo.after hostOps2_1 (W5 m ρ c) (Proc.devRef .tc main_v25) = _
  after_results
  rw [W4_v24]
  rfl

theorem W6_v3 : W6 m ρ c (Proc.devRef .tc main_v3) = val_main_v3 (F := Ideal) a1 := by
  show StableHlo.after hostOps2_1 (W5 m ρ c) (Proc.devRef .tc main_v3) = _
  after_results
  exact W4_v3 m ρ c

/-! ## After the second message region -/

/-- The messages of the second layer are the reference's. -/
theorem W7_v35 : W7 m ρ c (Proc.devRef .tc main_v35) = val_main_v45 (F := Ideal) a0 a1 a2 a4 a5 a6 a7 a8 a9 a10 a11 := by
  refine (W7_arr m ρ c 4).trans ((Cert.KernelIdeal.EdgeValue2.arr_out (V6 m ρ) c).trans ?_)
  rw [Cert.ReferenceIdeal.Stages.v45_eq]
  show edgeMsg _ (W6 m ρ c (Proc.devRef .tc main_arg2)) (W6 m ρ c (Proc.devRef .tc main_v32))
      (fun k n => W6 m ρ c (Proc.devRef .tc main_v33) (ix2 k n))
      (fun n => W6 m ρ c (Proc.devRef .tc main_v34) (ix2 (0 : Fin 1) n)) = _
  rw [W6_arg2, W6_v32, W6_v33, W6_v34]
  simp only [rowCast_apply]

theorem W7_v25 : W7 m ρ c (Proc.devRef .tc main_v25) = val_main_v32 (F := Ideal) a0 a1 a2 a4 a5 a6 a7 a8 a9 :=
  (W7_of_ne m ρ c main_v25 (by decide)).trans (W6_v25 m ρ c)
theorem W7_v3 : W7 m ρ c (Proc.devRef .tc main_v3) = val_main_v3 (F := Ideal) a1 :=
  (W7_of_ne m ρ c main_v3 (by decide)).trans (W6_v3 m ρ c)
theorem W7_arg12 : W7 m ρ c (Proc.devRef .tc main_arg12) = a12 := by to_launch
theorem W7_arg13 : W7 m ρ c (Proc.devRef .tc main_arg13) = a13 := by to_launch
theorem W7_arg14 : W7 m ρ c (Proc.devRef .tc main_arg14) = a14 := by to_launch
theorem W7_arg15 : W7 m ρ c (Proc.devRef .tc main_arg15) = a15 := by to_launch
theorem W7_arg3 : W7 m ρ c (Proc.devRef .tc main_arg3) = a3 := by to_launch
theorem W7_arg16 : W7 m ρ c (Proc.devRef .tc main_arg16) = a16 := by to_launch
theorem W7_arg17 : W7 m ρ c (Proc.devRef .tc main_arg17) = a17 := by to_launch

/-! ## The second aggregation and the second network's weights -/

theorem W8_v41 : W8 m ρ c (Proc.devRef .tc main_v41) = val_main_v51 (F := Ideal) a0 a1 a2 a4 a5 a6 a7 a8 a9 a10 a11 := by
  show StableHlo.after hostOps3 (W7 m ρ c) (Proc.devRef .tc main_v41) = _
  after_results
  rw [W7_v25, W7_v3, W7_v35]
  rfl

theorem W8_v42 : W8 m ρ c (Proc.devRef .tc main_v42) = a12 := by
  show StableHlo.after hostOps3 (W7 m ρ c) (Proc.devRef .tc main_v42) = _
  after_results
  rw [W7_arg12]
  rfl

theorem W8_v43 : W8 m ρ c (Proc.devRef .tc main_v43) = a14 := by
  show StableHlo.after hostOps3 (W7 m ρ c) (Proc.devRef .tc main_v43) = _
  after_results
  rw [W7_arg14]
  rfl

theorem W8_v44 : W8 m ρ c (Proc.devRef .tc main_v44) = shapeCast S1x128 a13 shapeCasts_S128_S1x128 := by
  show StableHlo.after hostOps3 (W7 m ρ c) (Proc.devRef .tc main_v44) = _
  after_results
  rw [W7_arg13]
  rfl

theorem W8_v45 : W8 m ρ c (Proc.devRef .tc main_v45) = shapeCast S1x128 a15 shapeCasts_S128_S1x128 := by
  show StableHlo.after hostOps3 (W7 m ρ c) (Proc.devRef .tc main_v45) = _
  after_results
  rw [W7_arg15]
  rfl

/-! ## After the second node update, the second activation, the pooling and the last product -/

/-- The second layer's node features before the activation are the reference's. -/
theorem W9_v46 : W9 m ρ c (Proc.devRef .tc main_v46) = val_main_v60 (F := Ideal) a0 a1 a2 a4 a5 a6 a7 a8 a9 a10 a11 a12 a13 a14 a15 := by
  refine (W9_arr m ρ c 5).trans ((Cert.KernelIdeal.MlpValue3.arr_out (V8 m ρ) c).trans ?_)
  rw [Cert.ReferenceIdeal.Stages.v60_eq]
  show mlp2Rows _ (W8 m ρ c (Proc.devRef .tc main_v41))
      (fun k n => W8 m ρ c (Proc.devRef .tc main_v42) (ix2 k n))
      (fun n => W8 m ρ c (Proc.devRef .tc main_v44) (ix2 (0 : Fin 1) n))
      (fun k n => W8 m ρ c (Proc.devRef .tc main_v43) (ix2 k n))
      (fun n => W8 m ρ c (Proc.devRef .tc main_v45) (ix2 (0 : Fin 1) n)) = _
  rw [W8_v41, W8_v42, W8_v44, W8_v43, W8_v45]
  simp only [rowCast_apply]

theorem W9_arg3 : W9 m ρ c (Proc.devRef .tc main_arg3) = a3 := by
  refine (W9_of_ne m ρ c main_arg3 (by decide)).trans ?_
  show StableHlo.after hostOps3 (W7 m ρ c) (Proc.devRef .tc main_arg3) = _
  after_results
  exact W7_arg3 m ρ c
theorem W9_arg16 : W9 m ρ c (Proc.devRef .tc main_arg16) = a16 := by
  refine (W9_of_ne m ρ c main_arg16 (by decide)).trans ?_
  show StableHlo.after hostOps3 (W7 m ρ c) (Proc.devRef .tc main_arg16) = _
  after_results
  exact W7_arg16 m ρ c
theorem W9_arg17 : W9 m ρ c (Proc.devRef .tc main_arg17) = a17 := by
  refine (W9_of_ne m ρ c main_arg17 (by decide)).trans ?_
  show StableHlo.after hostOps3 (W7 m ρ c) (Proc.devRef .tc main_arg17) = _
  after_results
  exact W7_arg17 m ρ c

-- the last stretch read below is two stretches long (the activation, then the pooling and the last affine map)
set_option maxHeartbeats 1600000 in
/-- THE RESULT: the pooled features times the last weight matrix plus the last bias are the reference's result. -/
theorem W11_v54 : W11 m ρ c (Proc.devRef .tc main_v54) = val_main_v68 (F := Ideal) a0 a1 a2 a3 a4 a5 a6 a7 a8 a9 a10 a11 a12 a13 a14 a15 a16 a17 := by
  show StableHlo.after hostOps4_1 (W10 m ρ c) (Proc.devRef .tc main_v54) = _
  after_results
  rw [W9_v46, W9_arg3, W9_arg16, W9_arg17]
  rfl

end Cert.KernelIdeal.BoundariesB

end
-- ==== Proof.lean ====
/-
  The certificate of a two-layer graph network with edge attributes, sum-pooled per graph and followed by one dense layer.

  Both programs gather the sending node's features along the edges, form the message
  max ((x_src + a · W_e) + b_e, 0) on every edge (a the edge's attributes), add the messages into their receiving nodes,
  add the node's own features, and pass each node's row through a two-layer perceptron; they do this twice, with an
  activation after each layer, sum the nodes of each graph and apply one last affine map. The kernel program computes the
  two message stages and the two perceptrons in kernel regions, blocks of 8000 edges and of 5000 nodes at a time, with the
  matrix unit's product accumulated into a zero matrix and its operands rounded to a shorter format; the reference computes
  them with whole products on the host. Over the extended reals a change of format is the identity and both products are
  the sum over the contracted coordinate, so block by block each region writes the rows of the reference's stage; the
  gathers, the scatter-additions, the activations and the last affine map are the same host operations on both sides.
  No law of arithmetic beyond reading a product as a sum is used, so the precondition is never opened.

  The frames of the two kernel programs and the reference's run are the generated ones; the kernel program's run is taken
  once more with its result buffer named (RunNamed), the buffer is read back boundary by boundary to the reference's
  result (BoundariesA, BoundariesB) over each region's value (EdgeValue0, MlpValue1, EdgeValue2, MlpValue3) and the
  reference's dense stages (RefStages), all four over one general reading of a message layer and of a row perceptron
  (LibGineConv).
-/
import proofs.«156036_j43258910605922_1_alg».proof.Defs
import proofs.«156036_j43258910605922_1_alg».proof.Proof.Gen.Kernel
import proofs.«156036_j43258910605922_1_alg».proof.Proof.Gen.Kernel.Skeleton
import proofs.«156036_j43258910605922_1_alg».proof.Proof.Gen.Kernel.Launch
import proofs.«156036_j43258910605922_1_alg».proof.Proof.Gen.Kernel.Points
import proofs.«156036_j43258910605922_1_alg».proof.Proof.Gen.Kernel.Frame
import proofs.«156036_j43258910605922_1_alg».proof.Proof.Gen.KernelIdeal
import proofs.«156036_j43258910605922_1_alg».proof.Proof.Gen.KernelIdeal.Skeleton
import proofs.«156036_j43258910605922_1_alg».proof.Proof.Gen.KernelIdeal.Launch
import proofs.«156036_j43258910605922_1_alg».proof.Proof.Gen.KernelIdeal.Points
import proofs.«156036_j43258910605922_1_alg».proof.Proof.Gen.KernelIdeal.Frame
import proofs.«156036_j43258910605922_1_alg».proof.Proof.Gen.ReferenceIdeal
import proofs.«156036_j43258910605922_1_alg».proof.Proof.Gen.Pre_finite_inputs
import proofs.«156036_j43258910605922_1_alg».proof.Proof.Gen.ReferenceIdeal.Run
import proofs.«156036_j43258910605922_1_alg».proof.Proof.Gen.ReferenceIdeal.Read
import proofs.«156036_j43258910605922_1_alg».proof.Proof.RunNamed
import proofs.«156036_j43258910605922_1_alg».proof.Proof.BoundariesB
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's result is its last stage of whatever its argument arrays hold. -/
theorem ref_result (m' : (ℓ : Loc Cert.ReferenceIdeal.nD Cert.ReferenceIdeal.τ Cert.ReferenceIdeal.sig) → Buf (Elt Ideal) ℓ) (c : Dev Cert.ReferenceIdeal.nD)
    (x0 : (⟨Cert.ReferenceIdeal.S50000x96, .f32⟩ : BufTy).Contents (Elt Ideal)) (x1 : (⟨Cert.ReferenceIdeal.S2x800000, .i32⟩ : BufTy).Contents (Elt Ideal)) (x2 : (⟨Cert.ReferenceIdeal.S800000x16, .f32⟩ : BufTy).Contents (Elt Ideal)) (x3 : (⟨Cert.ReferenceIdeal.S50000, .i32⟩ : BufTy).Contents (Elt Ideal)) (x4 : (⟨Cert.ReferenceIdeal.S16x96, .f32⟩ : BufTy).Contents (Elt Ideal)) (x5 : (⟨Cert.ReferenceIdeal.S96, .f32⟩ : BufTy).Contents (Elt Ideal)) (x6 : (⟨Cert.ReferenceIdeal.S96x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S16x128, .f32⟩ : BufTy).Contents (Elt Ideal)) (x11 : (⟨Cert.ReferenceIdeal.S128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S128x128, .f32⟩ : BufTy).Contents (Elt Ideal)) (x15 : (⟨Cert.ReferenceIdeal.S128, .f32⟩ : BufTy).Contents (Elt Ideal)) (x16 : (⟨Cert.ReferenceIdeal.S128x128, .f32⟩ : BufTy).Contents (Elt Ideal)) (x17 : (⟨Cert.ReferenceIdeal.S128, .f32⟩ : BufTy).Contents (Elt Ideal))
    (h0 : m' ((c.tc : Thread Cert.ReferenceIdeal.nD Cert.ReferenceIdeal.τ).loc Cert.ReferenceIdeal.main_arg0) = x0)
    (h1 : m' ((c.tc : Thread Cert.ReferenceIdeal.nD Cert.ReferenceIdeal.τ).loc Cert.ReferenceIdeal.main_arg1) = x1)
    (h2 : m' ((c.tc : Thread Cert.ReferenceIdeal.nD Cert.ReferenceIdeal.τ).loc Cert.ReferenceIdeal.main_arg2) = x2)
    (h3 : m' ((c.tc : Thread Cert.ReferenceIdeal.nD Cert.ReferenceIdeal.τ).loc Cert.ReferenceIdeal.main_arg3) = x3)
    (h4 : m' ((c.tc : Thread Cert.ReferenceIdeal.nD Cert.ReferenceIdeal.τ).loc Cert.ReferenceIdeal.main_arg4) = x4)
    (h5 : m' ((c.tc : Thread Cert.ReferenceIdeal.nD Cert.ReferenceIdeal.τ).loc Cert.ReferenceIdeal.main_arg5) = x5)
    (h6 : m' ((c.tc : Thread Cert.ReferenceIdeal.nD Cert.ReferenceIdeal.τ).loc Cert.ReferenceIdeal.main_arg6) = x6)
    (h7 : m' ((c.tc : Thread Cert.ReferenceIdeal.nD Cert.ReferenceIdeal.τ).loc Cert.ReferenceIdeal.main_arg7) = x7)
    (h8 : m' ((c.tc : Thread Cert.ReferenceIdeal.nD Cert.ReferenceIdeal.τ).loc Cert.ReferenceIdeal.main_arg8) = x8)
    (h9 : m' ((c.tc : Thread Cert.ReferenceIdeal.nD Cert.ReferenceIdeal.τ).loc Cert.ReferenceIdeal.main_arg9) = x9)
    (h10 : m' ((c.tc : Thread Cert.ReferenceIdeal.nD Cert.ReferenceIdeal.τ).loc Cert.ReferenceIdeal.main_arg10) = x10)
    (h11 : m' ((c.tc : Thread Cert.ReferenceIdeal.nD Cert.ReferenceIdeal.τ).loc Cert.ReferenceIdeal.main_arg11) = x11)
    (h12 : m' ((c.tc : Thread Cert.ReferenceIdeal.nD Cert.ReferenceIdeal.τ).loc Cert.ReferenceIdeal.main_arg12) = x12)
    (h13 : m' ((c.tc : Thread Cert.ReferenceIdeal.nD Cert.ReferenceIdeal.τ).loc Cert.ReferenceIdeal.main_arg13) = x13)
    (h14 : m' ((c.tc : Thread Cert.ReferenceIdeal.nD Cert.ReferenceIdeal.τ).loc Cert.ReferenceIdeal.main_arg14) = x14)
    (h15 : m' ((c.tc : Thread Cert.ReferenceIdeal.nD Cert.ReferenceIdeal.τ).loc Cert.ReferenceIdeal.main_arg15) = x15)
    (h16 : m' ((c.tc : Thread Cert.ReferenceIdeal.nD Cert.ReferenceIdeal.τ).loc Cert.ReferenceIdeal.main_arg16) = x16)
    (h17 : m' ((c.tc : Thread Cert.ReferenceIdeal.nD Cert.ReferenceIdeal.τ).loc Cert.ReferenceIdeal.main_arg17) = x17) :
    Cert.ReferenceIdeal.Value.res_main_v68 m' c = Cert.ReferenceIdeal.Read.val_main_v68 (F := Ideal) x0 x1 x2 x3 x4 x5 x6 x7 x8 x9 x10 x11 x12 x13 x14 x15 x16 x17 := by
  subst h0 h1 h2 h3 h4 h5 h6 h7 h8 h9 h10 h11 h12 h13 h14 h15 h16 h17
  exact Cert.ReferenceIdeal.Read.val_main_v68_eq (F := Ideal) m' c

/-- From memories agreeing on the arguments both programs end with the reference's last stage of the arguments in their
    result buffers: the kernel program's buffer read back through its boundaries, the reference's by its own run. -/
theorem algebraic : Cert.algebraic_KernelIdeal_ReferenceIdeal := by
  intro m ρ m' ρ' _ hagree
  refine ⟨fun c => Cert.ReferenceIdeal.Read.val_main_v68 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.BoundariesB.W11_v54 m ρ c), (h c).2⟩)
      (Cert.KernelIdeal.GenRun.run_named m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14, h15, h16, h17⟩ := hagree c
    exact (h c).1.trans (ref_result m' c _ _ _ _ _ _ _ _ _ _ _ _ _ _ _ _ _ _ h0 h1 h2 h3 h4 h5 h6 h7 h8 h9 h10 h11 h12 h13 h14 h15 h16 h17)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
